-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x2048 : Shape := ⟨3, ![32, 2048, 2048]⟩
abbrev S64x2048 : Shape := ⟨2, ![64, 2048]⟩
abbrev S32x2048 : Shape := ⟨2, ![32, 2048]⟩
abbrev S_ : Shape := ⟨0, ![]⟩

class Facts : Prop where
  bcast_S_S32x2048x2048 : S_.BroadcastsInDim S32x2048x2048 (![] : Fin 0 → Fin S32x2048x2048.rank)
  reducesTo_S32x2048x2048_S_d0_1_2 : S32x2048x2048.ReducesTo [0, 1, 2] S_
  h_S_ : 0 < S_.numel
  bcast_S_S64x2048 : S_.BroadcastsInDim S64x2048 (![] : Fin 0 → Fin S64x2048.rank)
  reducesTo_S64x2048_S_d0_1 : S64x2048.ReducesTo [0, 1] S_
  bcast_S_S32x2048 : S_.BroadcastsInDim S32x2048 (![] : Fin 0 → Fin S32x2048.rank)
  reducesTo_S32x2048_S_d0_1 : S32x2048.ReducesTo [0, 1] S_

variable [Facts]

def fn_part1 {F : FTy → Type} [FloatOps F] (main_arg4 : IVec S32x2048 32) (main_v13 : IVec S_ 1) (main_v16 : IVec S64x2048 1) : IVec S_ 1 :=
  let main_c_5 : IVec S_ 1 := constantI S_ 1 1#1
  let main_v17 : IVec S_ 1 := (fun x v => Host.reduce IntOp.andi x v reducesTo_S64x2048_S_d0_1 h_S_) main_v16 main_c_5
  let main_v18 : IVec S_ 1 := andi main_v13 main_v17
  let main_c_6 : IVec S_ 32 := constantI S_ 32 0#32
  let main_v19 : IVec S32x2048 32 := broadcastInDim S32x2048 ![] bcast_S_S32x2048 main_c_6
  let main_v20 : IVec S32x2048 1 := cmpi .sge main_arg4 main_v19
  let main_c_7 : IVec S_ 32 := constantI S_ 32 2048#32
  let main_v21 : IVec S32x2048 32 := broadcastInDim S32x2048 ![] bcast_S_S32x2048 main_c_7
  let main_v22 : IVec S32x2048 1 := cmpi .slt main_arg4 main_v21
  let main_v23 : IVec S32x2048 1 := andi main_v20 main_v22
  let main_c_8 : IVec S_ 1 := constantI S_ 1 1#1
  let main_v24 : IVec S_ 1 := (fun x v => Host.reduce IntOp.andi x v reducesTo_S32x2048_S_d0_1 h_S_) main_v23 main_c_8
  let main_v25 : IVec S_ 1 := andi main_v18 main_v24
  main_v25

def fn {F : FTy → Type} [FloatOps F] (main_arg0 : FVec F S32x2048x2048 .f32) (main_arg1 : FVec F S64x2048 .f32) (main_arg2 : FVec F S64x2048 .f32) (main_arg3 : FVec F S64x2048 .f32) (main_arg4 : IVec S32x2048 32) : IVec S_ 1 :=
  let main_v0 : FVec F S32x2048x2048 .f32 := Host.absf main_arg0
  let main_cst : FVec F S_ .f32 := constant S_ .f32 0x7F800000#32
  let main_v1 : FVec F S32x2048x2048 .f32 := broadcastInDim S32x2048x2048 ![] bcast_S_S32x2048x2048 main_cst
  let main_v2 : IVec S32x2048x2048 1 := cmpf .olt main_v0 main_v1
  let main_c : IVec S_ 1 := constantI S_ 1 1#1
  let main_v3 : IVec S_ 1 := (fun x v => Host.reduce IntOp.andi x v reducesTo_S32x2048x2048_S_d0_1_2 h_S_) main_v2 main_c
  let main_v4 : FVec F S64x2048 .f32 := Host.absf main_arg1
  let main_cst_0 : FVec F S_ .f32 := constant S_ .f32 0x7F800000#32
  let main_v5 : FVec F S64x2048 .f32 := broadcastInDim S64x2048 ![] bcast_S_S64x2048 main_cst_0
  let main_v6 : IVec S64x2048 1 := cmpf .olt main_v4 main_v5
  let main_c_1 : IVec S_ 1 := constantI S_ 1 1#1
  let main_v7 : IVec S_ 1 := (fun x v => Host.reduce IntOp.andi x v reducesTo_S64x2048_S_d0_1 h_S_) main_v6 main_c_1
  let main_v8 : IVec S_ 1 := andi main_v3 main_v7
  let main_v9 : FVec F S64x2048 .f32 := Host.absf main_arg2
  let main_cst_2 : FVec F S_ .f32 := constant S_ .f32 0x7F800000#32
  let main_v10 : FVec F S64x2048 .f32 := broadcastInDim S64x2048 ![] bcast_S_S64x2048 main_cst_2
  let main_v11 : IVec S64x2048 1 := cmpf .olt main_v9 main_v10
  let main_c_3 : IVec S_ 1 := constantI S_ 1 1#1
  let main_v12 : IVec S_ 1 := (fun x v => Host.reduce IntOp.andi x v reducesTo_S64x2048_S_d0_1 h_S_) main_v11 main_c_3
  let main_v13 : IVec S_ 1 := andi main_v8 main_v12
  let main_v14 : FVec F S64x2048 .f32 := Host.absf main_arg3
  let main_cst_4 : FVec F S_ .f32 := constant S_ .f32 0x7F800000#32
  let main_v15 : FVec F S64x2048 .f32 := broadcastInDim S64x2048 ![] bcast_S_S64x2048 main_cst_4
  let main_v16 : IVec S64x2048 1 := cmpf .olt main_v14 main_v15
  fn_part1 (F := F) main_arg4 main_v13 main_v16
-- ==== Kernel.lean ====
abbrev S32x2048x2048 : Shape := ⟨3, ![32, 2048, 2048]⟩
abbrev S64x2048 : Shape := ⟨2, ![64, 2048]⟩
abbrev S32x2048 : Shape := ⟨2, ![32, 2048]⟩
abbrev S2048x64 : Shape := ⟨2, ![2048, 64]⟩
abbrev S32x2048x64 : Shape := ⟨3, ![32, 2048, 64]⟩
abbrev S1x2048x2048 : Shape := ⟨3, ![1, 2048, 2048]⟩
abbrev S1x2048x64 : Shape := ⟨3, ![1, 2048, 64]⟩
abbrev S2048x2048 : Shape := ⟨2, ![2048, 2048]⟩
abbrev S128x2048 : Shape := ⟨2, ![128, 2048]⟩
abbrev S1x128 : Shape := ⟨2, ![1, 128]⟩
abbrev S128 : Shape := ⟨1, ![128]⟩
abbrev S128x1 : Shape := ⟨2, ![128, 1]⟩
abbrev S128x64 : Shape := ⟨2, ![128, 64]⟩
abbrev S1x128x64 : Shape := ⟨3, ![1, 128, 64]⟩

abbrev nBuf : Space → Nat
  | .hbm => 9
  | .vmem => 8
  | .smem => 0
  | _ => 0

abbrev bufTy : (tb : Table) → Fin (tcTables nBuf tb) → BufTy
  | .hbm, ⟨0, _⟩ => ⟨S32x2048x2048, .f32⟩
  | .hbm, ⟨1, _⟩ => ⟨S64x2048, .f32⟩
  | .hbm, ⟨2, _⟩ => ⟨S64x2048, .f32⟩
  | .hbm, ⟨3, _⟩ => ⟨S64x2048, .f32⟩
  | .hbm, ⟨4, _⟩ => ⟨S32x2048, .i32⟩
  | .hbm, ⟨5, _⟩ => ⟨S2048x64, .f32⟩
  | .hbm, ⟨6, _⟩ => ⟨S2048x64, .f32⟩
  | .hbm, ⟨7, _⟩ => ⟨S2048x64, .f32⟩
  | .hbm, ⟨8, _⟩ => ⟨S32x2048x64, .f32⟩
  | .local _ .vmem, ⟨0, _⟩ => ⟨S1x2048x2048, .f32⟩
  | .local _ .vmem, ⟨1, _⟩ => ⟨S1x2048x2048, .f32⟩
  | .local _ .vmem, ⟨2, _⟩ => ⟨S2048x64, .f32⟩
  | .local _ .vmem, ⟨3, _⟩ => ⟨S2048x64, .f32⟩
  | .local _ .vmem, ⟨4, _⟩ => ⟨S2048x64, .f32⟩
  | .local _ .vmem, ⟨5, _⟩ => ⟨S32x2048, .i32⟩
  | .local _ .vmem, ⟨6, _⟩ => ⟨S1x2048x64, .f32⟩
  | .local _ .vmem, ⟨7, _⟩ => ⟨S1x2048x64, .f32⟩
  | _, _ => ⟨S32x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def k0_off1 (i : grid0.Coords) : Fin 2 → Nat :=
  let arg0 : BitVec 32 := BitVec.ofNat 32 (i 0).val
  let v12 : Index := Scalar.indexCast arg0
  let c0_10 : Index := 0#32
  ![v12.toNat, 0]
def k0_off2 (i : grid0.Coords) : Fin 2 → Nat :=
  let arg0 : BitVec 32 := BitVec.ofNat 32 (i 0).val
  let v33 : Index := Scalar.indexCast arg0
  let c128 : Index := 128#32
  ![v33.toNat, 128]
def k0_off3 (i : grid0.Coords) : Fin 2 → Nat :=
  let arg0 : BitVec 32 := BitVec.ofNat 32 (i 0).val
  let v54 : Index := Scalar.indexCast arg0
  let c256 : Index := 256#32
  ![v54.toNat, 256]
def k0_off4 (i : grid0.Coords) : Fin 2 → Nat :=
  let arg0 : BitVec 32 := BitVec.ofNat 32 (i 0).val
  let v75 : Index := Scalar.indexCast arg0
  let c384 : Index := 384#32
  ![v75.toNat, 384]
def k0_off5 (i : grid0.Coords) : Fin 2 → Nat :=
  let arg0 : BitVec 32 := BitVec.ofNat 32 (i 0).val
  let v96 : Index := Scalar.indexCast arg0
  let c512 : Index := 512#32
  ![v96.toNat, 512]
def k0_off6 (i : grid0.Coords) : Fin 2 → Nat :=
  let arg0 : BitVec 32 := BitVec.ofNat 32 (i 0).val
  let v117 : Index := Scalar.indexCast arg0
  let c640 : Index := 640#32
  ![v117.toNat, 640]
def k0_off7 (i : grid0.Coords) : Fin 2 → Nat :=
  let arg0 : BitVec 32 := BitVec.ofNat 32 (i 0).val
  let v138 : Index := Scalar.indexCast arg0
  let c768 : Index := 768#32
  ![v138.toNat, 768]
def k0_off8 (i : grid0.Coords) : Fin 2 → Nat :=
  let arg0 : BitVec 32 := BitVec.ofNat 32 (i 0).val
  let v159 : Index := Scalar.indexCast arg0
  let c896 : Index := 896#32
  ![v159.toNat, 896]
def k0_off9 (i : grid0.Coords) : Fin 2 → Nat :=
  let arg0 : BitVec 32 := BitVec.ofNat 32 (i 0).val
  let v180 : Index := Scalar.indexCast arg0
  let c1024 : Index := 1024#32
  ![v180.toNat, 1024]
def k0_off10 (i : grid0.Coords) : Fin 2 → Nat :=
  let arg0 : BitVec 32 := BitVec.ofNat 32 (i 0).val
  let v201 : Index := Scalar.indexCast arg0
  let c1152 : Index := 1152#32
  ![v201.toNat, 1152]
def k0_off11 (i : grid0.Coords) : Fin 2 → Nat :=
  let arg0 : BitVec 32 := BitVec.ofNat 32 (i 0).val
  let v222 : Index := Scalar.indexCast arg0
  let c1280 : Index := 1280#32
  ![v222.toNat, 1280]
def k0_off12 (i : grid0.Coords) : Fin 2 → Nat :=
  let arg0 : BitVec 32 := BitVec.ofNat 32 (i 0).val
  let v243 : Index := Scalar.indexCast arg0
  let c1408 : Index := 1408#32
  ![v243.toNat, 1408]
def k0_off13 (i : grid0.Coords) : Fin 2 → Nat :=
  let arg0 : BitVec 32 := BitVec.ofNat 32 (i 0).val
  let v264 : Index := Scalar.indexCast arg0
  let c1536 : Index := 1536#32
  ![v264.toNat, 1536]
def k0_off14 (i : grid0.Coords) : Fin 2 → Nat :=
  let arg0 : BitVec 32 := BitVec.ofNat 32 (i 0).val
  let v285 : Index := Scalar.indexCast arg0
  let c1664 : Index := 1664#32
  ![v285.toNat, 1664]
def k0_off15 (i : grid0.Coords) : Fin 2 → Nat :=
  let arg0 : BitVec 32 := BitVec.ofNat 32 (i 0).val
  let v306 : Index := Scalar.indexCast arg0
  let c1792 : Index := 1792#32
  ![v306.toNat, 1792]
def k0_off16 (i : grid0.Coords) : Fin 2 → Nat :=
  let arg0 : BitVec 32 := BitVec.ofNat 32 (i 0).val
  let v327 : Index := Scalar.indexCast arg0
  let c1920 : Index := 1920#32
  ![v327.toNat, 1920]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x2048 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x2048x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  transposes_S64x2048_S2048x64_1_0 : S64x2048.Transposes [1, 0] S2048x64
  inb_S1x2048x2048_S1x2048x2048_0_0_0 : ∀ a, (![0, 0, 0] : Fin 3 → Nat) a + S1x2048x2048.size a ≤ S1x2048x2048.size a
  h_S1x2048x2048 : 0 < S1x2048x2048.numel
  shapeCasts_S1x2048x2048_S2048x2048 : S1x2048x2048.ShapeCasts S2048x2048
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  iota_S128x2048_d1_w32 : S128x2048.Iotas .tc 32 [1]
  h_S1x128 : 0 < S1x128.numel
  shapeCasts_S1x128_S128 : S1x128.ShapeCasts S128
  shapeCasts_S128_S128x1 : S128.ShapeCasts S128x1
  broadcasts_S128x1_S128x2048 : S128x1.Broadcasts S128x2048
  natLt_1_32 : 1 < 32
  slices_S2048x64_o0_0_S128x64 : S2048x64.Slices ![0, 0] S128x64
  reduces_S128x64_S128 : S128x64.Reduces [1] S128
  broadcasts_S128x1_S128x64 : S128x1.Broadcasts S128x64
  inb_S1x2048x64_S1x128x64_0_0_0 : ∀ a, (![0, 0, 0] : Fin 3 → Nat) a + S1x128x64.size a ≤ S1x2048x64.size a
  h_S1x128x64 : 0 < S1x128x64.numel
  shapeCasts_S1x128x64_S128x64 : S1x128x64.ShapeCasts S128x64
  shapeCasts_S128x64_S1x128x64 : S128x64.ShapeCasts S1x128x64
  slices_S2048x64_o128_0_S128x64 : S2048x64.Slices ![128, 0] S128x64
  inb_S1x2048x64_S1x128x64_0_128_0 : ∀ a, (![0, 128, 0] : Fin 3 → Nat) a + S1x128x64.size a ≤ S1x2048x64.size a
  slices_S2048x64_o256_0_S128x64 : S2048x64.Slices ![256, 0] S128x64
  inb_S1x2048x64_S1x128x64_0_256_0 : ∀ a, (![0, 256, 0] : Fin 3 → Nat) a + S1x128x64.size a ≤ S1x2048x64.size a
  slices_S2048x64_o384_0_S128x64 : S2048x64.Slices ![384, 0] S128x64
  inb_S1x2048x64_S1x128x64_0_384_0 : ∀ a, (![0, 384, 0] : Fin 3 → Nat) a + S1x128x64.size a ≤ S1x2048x64.size a
  slices_S2048x64_o512_0_S128x64 : S2048x64.Slices ![512, 0] S128x64
  inb_S1x2048x64_S1x128x64_0_512_0 : ∀ a, (![0, 512, 0] : Fin 3 → Nat) a + S1x128x64.size a ≤ S1x2048x64.size a
  slices_S2048x64_o640_0_S128x64 : S2048x64.Slices ![640, 0] S128x64
  inb_S1x2048x64_S1x128x64_0_640_0 : ∀ a, (![0, 640, 0] : Fin 3 → Nat) a + S1x128x64.size a ≤ S1x2048x64.size a
  slices_S2048x64_o768_0_S128x64 : S2048x64.Slices ![768, 0] S128x64
  inb_S1x2048x64_S1x128x64_0_768_0 : ∀ a, (![0, 768, 0] : Fin 3 → Nat) a + S1x128x64.size a ≤ S1x2048x64.size a
  slices_S2048x64_o896_0_S128x64 : S2048x64.Slices ![896, 0] S128x64
  inb_S1x2048x64_S1x128x64_0_896_0 : ∀ a, (![0, 896, 0] : Fin 3 → Nat) a + S1x128x64.size a ≤ S1x2048x64.size a
  slices_S2048x64_o1024_0_S128x64 : S2048x64.Slices ![1024, 0] S128x64
  inb_S1x2048x64_S1x128x64_0_1024_0 : ∀ a, (![0, 1024, 0] : Fin 3 → Nat) a + S1x128x64.size a ≤ S1x2048x64.size a
  slices_S2048x64_o1152_0_S128x64 : S2048x64.Slices ![1152, 0] S128x64
  inb_S1x2048x64_S1x128x64_0_1152_0 : ∀ a, (![0, 1152, 0] : Fin 3 → Nat) a + S1x128x64.size a ≤ S1x2048x64.size a
  slices_S2048x64_o1280_0_S128x64 : S2048x64.Slices ![1280, 0] S128x64
  inb_S1x2048x64_S1x128x64_0_1280_0 : ∀ a, (![0, 1280, 0] : Fin 3 → Nat) a + S1x128x64.size a ≤ S1x2048x64.size a
  slices_S2048x64_o1408_0_S128x64 : S2048x64.Slices ![1408, 0] S128x64
  inb_S1x2048x64_S1x128x64_0_1408_0 : ∀ a, (![0, 1408, 0] : Fin 3 → Nat) a + S1x128x64.size a ≤ S1x2048x64.size a
  slices_S2048x64_o1536_0_S128x64 : S2048x64.Slices ![1536, 0] S128x64
  inb_S1x2048x64_S1x128x64_0_1536_0 : ∀ a, (![0, 1536, 0] : Fin 3 → Nat) a + S1x128x64.size a ≤ S1x2048x64.size a
  slices_S2048x64_o1664_0_S128x64 : S2048x64.Slices ![1664, 0] S128x64
  inb_S1x2048x64_S1x128x64_0_1664_0 : ∀ a, (![0, 1664, 0] : Fin 3 → Nat) a + S1x128x64.size a ≤ S1x2048x64.size a
  slices_S2048x64_o1792_0_S128x64 : S2048x64.Slices ![1792, 0] S128x64
  inb_S1x2048x64_S1x128x64_0_1792_0 : ∀ a, (![0, 1792, 0] : Fin 3 → Nat) a + S1x128x64.size a ≤ S1x2048x64.size a
  slices_S2048x64_o1920_0_S128x64 : S2048x64.Slices ![1920, 0] S128x64
  inb_S1x2048x64_S1x128x64_0_1920_0 : ∀ a, (![0, 1920, 0] : Fin 3 → Nat) a + S1x128x64.size a ≤ S1x2048x64.size a
  dot_S2048x2048_S2048x64_S2048x64_1_0_0_1_n_n_wf : DotDims.WF S2048x2048 S2048x64 S2048x64 [1] [0] [0] [1] [] []
  dot_S128x2048_S2048x64_S128x64_1_0_0_1_n_n_wf : DotDims.WF S128x2048 S2048x64 S128x64 [1] [0] [0] [1] [] []
  hrank0 : 0 < grid0.rank
  k0_off1_inb : ∀ i : grid0.Coords, ∀ a, (k0_off1 i) a + S1x128.size a ≤ S32x2048.size a
  k0_off2_inb : ∀ i : grid0.Coords, ∀ a, (k0_off2 i) a + S1x128.size a ≤ S32x2048.size a
  k0_off3_inb : ∀ i : grid0.Coords, ∀ a, (k0_off3 i) a + S1x128.size a ≤ S32x2048.size a
  k0_off4_inb : ∀ i : grid0.Coords, ∀ a, (k0_off4 i) a + S1x128.size a ≤ S32x2048.size a
  k0_off5_inb : ∀ i : grid0.Coords, ∀ a, (k0_off5 i) a + S1x128.size a ≤ S32x2048.size a
  k0_off6_inb : ∀ i : grid0.Coords, ∀ a, (k0_off6 i) a + S1x128.size a ≤ S32x2048.size a
  k0_off7_inb : ∀ i : grid0.Coords, ∀ a, (k0_off7 i) a + S1x128.size a ≤ S32x2048.size a
  k0_off8_inb : ∀ i : grid0.Coords, ∀ a, (k0_off8 i) a + S1x128.size a ≤ S32x2048.size a
  k0_off9_inb : ∀ i : grid0.Coords, ∀ a, (k0_off9 i) a + S1x128.size a ≤ S32x2048.size a
  k0_off10_inb : ∀ i : grid0.Coords, ∀ a, (k0_off10 i) a + S1x128.size a ≤ S32x2048.size a
  k0_off11_inb : ∀ i : grid0.Coords, ∀ a, (k0_off11 i) a + S1x128.size a ≤ S32x2048.size a
  k0_off12_inb : ∀ i : grid0.Coords, ∀ a, (k0_off12 i) a + S1x128.size a ≤ S32x2048.size a
  k0_off13_inb : ∀ i : grid0.Coords, ∀ a, (k0_off13 i) a + S1x128.size a ≤ S32x2048.size a
  k0_off14_inb : ∀ i : grid0.Coords, ∀ a, (k0_off14 i) a + S1x128.size a ≤ S32x2048.size a
  k0_off15_inb : ∀ i : grid0.Coords, ∀ a, (k0_off15 i) a + S1x128.size a ≤ S32x2048.size a
  k0_off16_inb : ∀ i : grid0.Coords, ∀ a, (k0_off16 i) a + S1x128.size a ≤ S32x2048.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x2048.size a ≤ S32x2048x2048.size a
  hwx0_0 : ∀ i : grid0.Coords, EltTy.bits .f32 = 32 ∨ (Rect.block (s := S32x2048x2048) S1x2048x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x64.size a ≤ S2048x64.size a
  hwx0_1 : ∀ i : grid0.Coords, EltTy.bits .f32 = 32 ∨ (Rect.block (s := S2048x64) S2048x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x64.size a ≤ S2048x64.size a
  hwx0_2 : ∀ i : grid0.Coords, EltTy.bits .f32 = 32 ∨ (Rect.block (s := S2048x64) S2048x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x64.size a ≤ S2048x64.size a
  hwx0_3 : ∀ i : grid0.Coords, EltTy.bits .f32 = 32 ∨ (Rect.block (s := S2048x64) S2048x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x2048.size a ≤ S32x2048.size a
  hwx0_4 : ∀ i : grid0.Coords, EltTy.bits .i32 = 32 ∨ (Rect.block (s := S32x2048) S32x2048.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x2048x64.size a ≤ S32x2048x64.size a
  hwx0_5 : ∀ i : grid0.Coords, EltTy.bits .f32 = 32 ∨ (Rect.block (s := S32x2048x64) S1x2048x64.size (cc0_transform_5 i) (hinb0_5 i)).WholeWords (EltTy.packing .f32)

variable [Facts₀]

def dot_S2048x2048_S2048x64_S2048x64_1_0_0_1_n_n : DotDims S2048x2048 S2048x64 S2048x64 where
  lhsContracting := [1]
  rhsContracting := [0]
  lhsNonContracting := [0]
  rhsNonContracting := [1]
  lhsBatch := []
  rhsBatch := []
  wf := dot_S2048x2048_S2048x64_S2048x64_1_0_0_1_n_n_wf
def dot_S128x2048_S2048x64_S128x64_1_0_0_1_n_n : DotDims S128x2048 S2048x64 S128x64 where
  lhsContracting := [1]
  rhsContracting := [0]
  lhsNonContracting := [0]
  rhsNonContracting := [1]
  lhsBatch := []
  rhsBatch := []
  wf := dot_S128x2048_S2048x64_S128x64_1_0_0_1_n_n_wf

abbrev win0_0 : Pipeline.Window sig grid0 :=
  Pipeline.Window.ofSpec (Memref.whole main_arg0) S1x2048x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2048x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S2048x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S32x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x2048x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S32x2048x2048 : Shape := ⟨3, ![32, 2048, 2048]⟩
abbrev S64x2048 : Shape := ⟨2, ![64, 2048]⟩
abbrev S32x2048 : Shape := ⟨2, ![32, 2048]⟩
abbrev S32x2048x64 : Shape := ⟨3, ![32, 2048, 64]⟩
abbrev S32x2048x1 : Shape := ⟨3, ![32, 2048, 1]⟩
abbrev S_ : Shape := ⟨0, ![]⟩
abbrev S1 : Shape := ⟨1, ![1]⟩
abbrev S1x1x1 : Shape := ⟨3, ![1, 1, 1]⟩

abbrev nBuf : Space → Nat
  | .hbm => 40
  | .vmem => 0
  | .smem => 0
  | _ => 0

abbrev bufTy : (tb : Table) → Fin (tcTables nBuf tb) → BufTy
  | .hbm, ⟨0, _⟩ => ⟨S32x2048x2048, .f32⟩
  | .hbm, ⟨1, _⟩ => ⟨S64x2048, .f32⟩
  | .hbm, ⟨2, _⟩ => ⟨S64x2048, .f32⟩
  | .hbm, ⟨3, _⟩ => ⟨S64x2048, .f32⟩
  | .hbm, ⟨4, _⟩ => ⟨S32x2048, .i32⟩
  | .hbm, ⟨5, _⟩ => ⟨S32x2048x64, .f32⟩
  | .hbm, ⟨6, _⟩ => ⟨S32x2048x64, .f32⟩
  | .hbm, ⟨7, _⟩ => ⟨S32x2048x64, .f32⟩
  | .hbm, ⟨8, _⟩ => ⟨S32x2048x1, .i32⟩
  | .hbm, ⟨9, _⟩ => ⟨S_, .i32⟩
  | .hbm, ⟨10, _⟩ => ⟨S32x2048x1, .i32⟩
  | .hbm, ⟨11, _⟩ => ⟨S32x2048x1, .i1⟩
  | .hbm, ⟨12, _⟩ => ⟨S_, .i32⟩
  | .hbm, ⟨13, _⟩ => ⟨S32x2048x1, .i32⟩
  | .hbm, ⟨14, _⟩ => ⟨S32x2048x1, .i32⟩
  | .hbm, ⟨15, _⟩ => ⟨S32x2048x1, .i32⟩
  | .hbm, ⟨16, _⟩ => ⟨S1, .i32⟩
  | .hbm, ⟨17, _⟩ => ⟨S_, .i32⟩
  | .hbm, ⟨18, _⟩ => ⟨S32x2048x1, .i32⟩
  | .hbm, ⟨19, _⟩ => ⟨S32x2048x1, .i1⟩
  | .hbm, ⟨20, _⟩ => ⟨S1x1x1, .i32⟩
  | .hbm, ⟨21, _⟩ => ⟨S32x2048x1, .i32⟩
  | .hbm, ⟨22, _⟩ => ⟨S32x2048x1, .i1⟩
  | .hbm, ⟨23, _⟩ => ⟨S32x2048x1, .i1⟩
  | .hbm, ⟨24, _⟩ => ⟨S_, .i1⟩
  | .hbm, ⟨25, _⟩ => ⟨S32x2048, .i1⟩
  | .hbm, ⟨26, _⟩ => ⟨S32x2048x64, .f32⟩
  | .hbm, ⟨27, _⟩ => ⟨S32x2048x64, .i1⟩
  | .hbm, ⟨28, _⟩ => ⟨S_, .f32⟩
  | .hbm, ⟨29, _⟩ => ⟨S32x2048x64, .f32⟩
  | .hbm, ⟨30, _⟩ => ⟨S32x2048x64, .f32⟩
  | .hbm, ⟨31, _⟩ => ⟨S32x2048x64, .f32⟩
  | .hbm, ⟨32, _⟩ => ⟨S_, .f32⟩
  | .hbm, ⟨33, _⟩ => ⟨S32x2048, .f32⟩
  | .hbm, ⟨34, _⟩ => ⟨S_, .f32⟩
  | .hbm, ⟨35, _⟩ => ⟨S32x2048, .f32⟩
  | .hbm, ⟨36, _⟩ => ⟨S32x2048, .f32⟩
  | .hbm, ⟨37, _⟩ => ⟨S32x2048x1, .f32⟩
  | .hbm, ⟨38, _⟩ => ⟨S32x2048x64, .f32⟩
  | .hbm, ⟨39, _⟩ => ⟨S32x2048x64, .f32⟩
  | _, _ => ⟨S32x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_c_1 : Ref sig .tc := ⟨.hbm, 16, rfl⟩
abbrev main_call0_c_2 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_c_3 : Ref sig .tc := ⟨.hbm, 24, rfl⟩
abbrev main_call0_v11 : Ref sig .tc := ⟨.hbm, 25, rfl⟩
abbrev main_call0_v12 : Ref sig .tc := ⟨.hbm, 26, rfl⟩
abbrev main_call0_v13 : Ref sig .tc := ⟨.hbm, 27, rfl⟩
abbrev main_call0_cst : Ref sig .tc := ⟨.hbm, 28, rfl⟩
abbrev main_call0_v14 : Ref sig .tc := ⟨.hbm, 29, rfl⟩
abbrev main_v4 : Ref sig .tc := ⟨.hbm, 30, rfl⟩
abbrev main_v5 : Ref sig .tc := ⟨.hbm, 31, rfl⟩
abbrev main_cst : Ref sig .tc := ⟨.hbm, 32, rfl⟩
abbrev main_v6 : Ref sig .tc := ⟨.hbm, 33, rfl⟩
abbrev main_cst_0 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩

abbrev nD : Nat := 1
abbrev τ : Topo := Topo.v7x

variable {F : FTy → Type} [FloatOps F]

class Facts₀ : Prop where
  bcast_S32x2048_S32x2048x1_0_1 : S32x2048.BroadcastsInDim S32x2048x1 (![0, 1] : Fin 2 → Fin S32x2048x1.rank)
  bcast_S_S32x2048x1 : S_.BroadcastsInDim S32x2048x1 (![] : Fin 0 → Fin S32x2048x1.rank)
  bcast_S1_S1x1x1_2 : S1.BroadcastsInDim S1x1x1 (![2] : Fin 1 → Fin S1x1x1.rank)
  bcast_S1x1x1_S32x2048x1_0_1_2 : S1x1x1.BroadcastsInDim S32x2048x1 (![0, 1, 2] : Fin 3 → Fin S32x2048x1.rank)
  reducesTo_S32x2048x1_S32x2048_d2 : S32x2048x1.ReducesTo [2] S32x2048
  h_S_ : 0 < S_.numel
  bcast_S32x2048_S32x2048x64_0_1 : S32x2048.BroadcastsInDim S32x2048x64 (![0, 1] : Fin 2 → Fin S32x2048x64.rank)
  bcast_S_S32x2048x64 : S_.BroadcastsInDim S32x2048x64 (![] : Fin 0 → Fin S32x2048x64.rank)
  reducesTo_S32x2048x64_S32x2048_d2 : S32x2048x64.ReducesTo [2] S32x2048
  bcast_S_S32x2048 : S_.BroadcastsInDim S32x2048 (![] : Fin 0 → Fin S32x2048.rank)
  bcast_S32x2048x1_S32x2048x64_0_1_2 : S32x2048x1.BroadcastsInDim S32x2048x64 (![0, 1, 2] : Fin 3 → Fin S32x2048x64.rank)
  dot_S32x2048x2048_S64x2048_S32x2048x64_2_1_01_0_n_n_wf : DotDims.WF S32x2048x2048 S64x2048 S32x2048x64 [2] [1] [0, 1] [0] [] []
  gather_S32x2048x64_S32x2048x1_S32x2048x64_2_1_0_0_1_2_1164_wf : GatherDims.WF S32x2048x64 S32x2048x1 S32x2048x64 [2] [1] [0] [1] [0] 2 ![1, 1, 64]

variable [Facts₀]

def dot_S32x2048x2048_S64x2048_S32x2048x64_2_1_01_0_n_n : DotDims S32x2048x2048 S64x2048 S32x2048x64 where
  lhsContracting := [2]
  rhsContracting := [1]
  lhsNonContracting := [0, 1]
  rhsNonContracting := [0]
  lhsBatch := []
  rhsBatch := []
  wf := dot_S32x2048x2048_S64x2048_S32x2048x64_2_1_01_0_n_n_wf
def gather_S32x2048x64_S32x2048x1_S32x2048x64_2_1_0_0_1_2_1164 : GatherDims S32x2048x64 S32x2048x1 S32x2048x64 where
  offsetDims := [2]
  collapsedSliceDims := [1]
  operandBatchingDims := [0]
  startIndicesBatchingDims := [0]
  startIndexMap := [1]
  indexVectorDim := 2
  sliceSizes := ![1, 1, 64]
  wf := gather_S32x2048x64_S32x2048x1_S32x2048x64_2_1_0_0_1_2_1164_wf

class Facts : Prop extends Facts₀ where

variable [Facts]
-- ==== Proof.Spec.lean ====
/-
  What both programs compute, as one function of the argument arrays.

  For a batch `b`, a row `n` and a feature `d` the result is

      ( (∑ e, q[b,n,e] · k[b, key_ids[b,n], e]) / 8 ) · v[b,n,d],

  where `q`, `k`, `v` are the three projections `∑ f, x[b,·,f] · w[·,f]` of the rows of `x[b]` against the rows
  of `wq`, `wk`, `wv`. The reference picks the key row by indexing (a key id read as a signed integer and clamped into
  the rows); the kernel picks it by summing all rows against the indicator of `key_ids[b,n] = row`. For a key id inside
  `[0, 2048)` the indicator sum has exactly one term that is not zero, and the two agree (`lookup_eq`); on the extended
  reals `0 · a = 0` and `1 · a = a` for every `a`, so this needs nothing of the projections.
-/
import Idealize.ShloMosaic.PureOps.Ideal
import Idealize.ShloMosaic.Lib.ValueIdx

noncomputable section

open scoped BigOperators

namespace Cert.Attn

open Idealize.ShloMosaic Idealize.ShloMosaic.ValueIdx

/-- `x`: batches × rows × features. -/
abbrev SX : Shape := ⟨3, ![32, 2048, 2048]⟩
/-- A weight matrix: projected features × features. -/
abbrev SW : Shape := ⟨2, ![64, 2048]⟩
/-- The key ids: batches × rows. -/
abbrev SI : Shape := ⟨2, ![32, 2048]⟩
/-- The result: batches × rows × projected features. -/
abbrev SO : Shape := ⟨3, ![32, 2048, 64]⟩
/-- One batch of `x`, as the kernel stages it. -/
abbrev SXb : Shape := ⟨3, ![1, 2048, 2048]⟩
/-- A transposed weight matrix: features × projected features. -/
abbrev SWt : Shape := ⟨2, ![2048, 64]⟩
/-- One batch of the result, as the kernel stages it. -/
abbrev SOb : Shape := ⟨3, ![1, 2048, 64]⟩

/-- Every key id, read as a signed integer, names a row. -/
def InRange (ids : IVec SI 32) : Prop := ∀ i, 0 ≤ (ids i).toInt ∧ (ids i).toInt < 2048

/-- The divisor both programs carry: the word of `8.0`. -/
def eight : EReal := Ideal.ofBits .f32 0x41000000#32

/-- A projection's entry: row `n` of batch `b` of `x` against row `d` of `w`. -/
def proj (x : FVec Ideal SX .f32) (w : FVec Ideal SW .f32) (b : Fin 32) (n : Fin 2048) (d : Fin 64) : EReal :=
  ∑ f : Fin 2048, x (ix3 b n f) * w (ix2 d f)

/-- The row a key id names: read signed, clamped into the rows. -/
def keyRow (id : BitVec 32) : Fin 2048 := ⟨min id.toInt.toNat 2047, by omega⟩

/-- The result at batch `b`, row `n`, feature `d`, the key row picked by indexing. -/
def attnAt (x : FVec Ideal SX .f32) (wq wk wv : FVec Ideal SW .f32) (ids : IVec SI 32) (b : Fin 32) (n : Fin 2048) (d : Fin 64) : EReal :=
  Ideal.div (∑ e : Fin 64, proj x wq b n e * proj x wk b (keyRow (ids (ix2 b n))) e) eight * proj x wv b n d

/-- The whole result array. -/
def attn (x : FVec Ideal SX .f32) (wq wk wv : FVec Ideal SW .f32) (ids : IVec SI 32) : FVec Ideal SO .f32 :=
  fun y => attnAt x wq wk wv ids (y 0) (y 1) (y 2)

/-! ## Picking a row by an indicator sum -/

/-- A one-bit condition widened to a word and read as a signed integer: `1` or `0`. -/
def bitVal (b : BitVec 1) : EReal := (((b.setWidth 32).toInt : ℝ) : EReal)

theorem bitVal_one : bitVal 1#1 = 1 := by
  show ((((1#1 : BitVec 1).setWidth 32).toInt : ℝ) : EReal) = 1
  have : ((1#1 : BitVec 1).setWidth 32).toInt = 1 := by decide
  rw [this]; norm_num

theorem bitVal_zero : bitVal 0#1 = 0 := by
  show ((((0#1 : BitVec 1).setWidth 32).toInt : ℝ) : EReal) = 0
  have : ((0#1 : BitVec 1).setWidth 32).toInt = 0 := by decide
  rw [this]; norm_num

/-- The entry of `K` a key id picks, as the sum over all rows against the indicator "the id is this row". -/
def lookup (id : BitVec 32) (K : Fin 2048 → EReal) : EReal :=
  ∑ r : Fin 2048, bitVal (IntOp.cmpi .eq id (BitVec.ofNat 32 r.val)) * K r

/-- A sum against an indicator of one row is the entry at that row. -/
theorem sum_indicator (K : Fin 2048 → EReal) (bit : Fin 2048 → BitVec 1) (j : Fin 2048)
    (h : ∀ r, bit r = 1#1 ↔ r = j) : ∑ r : Fin 2048, bitVal (bit r) * K r = K j := by
  rw [Finset.sum_eq_single j]
  · rw [(h j).2 rfl, bitVal_one, one_mul]
  · intro r _ hr
    have h0 : bit r = 0#1 := eq_zero_of_ne_one fun h1 => hr ((h r).1 h1)
    rw [h0, bitVal_zero, zero_mul]
  · intro hj; exact absurd (Finset.mem_univ j) hj

/-- A key id in `[0, 2048)` equals the word of a row number exactly at the row it names. -/
theorem id_eq_ofNat_iff (id : BitVec 32) (h : 0 ≤ id.toInt ∧ id.toInt < 2048) (r : Fin 2048) :
    id = BitVec.ofNat 32 r.val ↔ r = keyRow id := by
  have hr := r.isLt
  have hnat : id.toInt = (id.toNat : ℤ) := by
    rcases h with ⟨h0, h1⟩
    have := BitVec.toInt_eq_toNat_cond id
    have hlt := id.isLt
    split at this <;> omega
  have hlt : id.toNat < 2048 := by omega
  constructor
  · intro e
    apply Fin.ext
    show r.val = min id.toInt.toNat 2047
    have : id.toNat = r.val := by rw [e, BitVec.toNat_ofNat]; omega
    omega
  · intro e
    apply BitVec.eq_of_toNat_eq
    rw [BitVec.toNat_ofNat]
    have : r.val = min id.toInt.toNat 2047 := congrArg Fin.val e
    omega

/-- For a key id that names a row the indicator sum is the entry at that row. -/
theorem lookup_eq (id : BitVec 32) (h : 0 ≤ id.toInt ∧ id.toInt < 2048) (K : Fin 2048 → EReal) :
    lookup id K = K (keyRow id) :=
  sum_indicator K _ (keyRow id) fun r => by
    rw [← id_eq_ofNat_iff id h r]
    by_cases e : id = BitVec.ofNat 32 r.val
    · simp [IntOp.cmpi, e]
    · have hb : (id == BitVec.ofNat 32 r.val) = false := beq_eq_false_iff_ne.mpr e
      simpa [IntOp.cmpi, hb] using e

/-- The result at batch `b`, row `n`, feature `d`, the key row picked by the indicator sum. -/
def attnSumAt (x : FVec Ideal SX .f32) (wq wk wv : FVec Ideal SW .f32) (ids : IVec SI 32) (b : Fin 32) (n : Fin 2048) (d : Fin 64) : EReal :=
  Ideal.div (∑ e : Fin 64, proj x wq b n e * lookup (ids (ix2 b n)) (fun r => proj x wk b r e)) eight * proj x wv b n d

theorem attnSumAt_eq (x : FVec Ideal SX .f32) (wq wk wv : FVec Ideal SW .f32) (ids : IVec SI 32) (h : InRange ids)
    (b : Fin 32) (n : Fin 2048) (d : Fin 64) : attnSumAt x wq wk wv ids b n d = attnAt x wq wk wv ids b n d := by
  unfold attnSumAt attnAt
  simp only [lookup_eq _ (h (ix2 b n))]

/-! ## One batch, as the kernel sees it: `x[b]` and the transposed weights -/

/-- A projection's entry over one batch of `x` and a transposed weight matrix. -/
def projT (xb : FVec Ideal SXb .f32) (wt : FVec Ideal SWt .f32) (n : Fin 2048) (d : Fin 64) : EReal :=
  ∑ f : Fin 2048, xb (ix3 0 n f) * wt (ix2 f d)

/-- The result's row `n`, feature `d` of one batch, from that batch of `x`, the transposed weights and the batch's key ids. -/
def blockAt (xb : FVec Ideal SXb .f32) (wqt wkt wvt : FVec Ideal SWt .f32) (idrow : Fin 2048 → BitVec 32) (n : Fin 2048) (d : Fin 64) : EReal :=
  Ideal.div (∑ e : Fin 64, projT xb wqt n e * lookup (idrow n) (fun r => projT xb wkt r e)) eight * projT xb wvt n d

/-- One batch of the result, as a staged block. -/
def block (xb : FVec Ideal SXb .f32) (wqt wkt wvt : FVec Ideal SWt .f32) (idrow : Fin 2048 → BitVec 32) : FVec Ideal SOb .f32 :=
  fun y => blockAt xb wqt wkt wvt idrow (y 1) (y 2)

end Cert.Attn

end
-- ==== Proof.PreRange.lean ====
/-
  The precondition's last conjunct read back: every key id, as a signed integer, lies in `[0, 2048)`.
-/
import proofs.«429981_j48713519071915_4_alg».proof.Pre_finite_inputs
import proofs.«429981_j48713519071915_4_alg».proof.Proof.Gen.Pre_finite_inputs
import proofs.«429981_j48713519071915_4_alg».proof.Proof.Spec
import Idealize.ShloMosaic.Lib.ReduceAll
import Idealize.ShloMosaic.Lib.StableHlo.Predicate

noncomputable section

namespace Cert.Attn

open Idealize.ShloMosaic Idealize.ShloMosaic.ValueIdx

/-- The precondition, all ones, says in particular that every key id names a row. -/
theorem inRange_of_pre [Cert.Pre_finite_inputs.Facts]
    (a0 : FVec Ideal Cert.Pre_finite_inputs.S32x2048x2048 .f32) (a1 a2 a3 : FVec Ideal Cert.Pre_finite_inputs.S64x2048 .f32)
    (ids : IVec Cert.Pre_finite_inputs.S32x2048 32)
    (h : Cert.Pre_finite_inputs.fn (F := Ideal) a0 a1 a2 a3 ids = fun _ => 1#1) : InRange ids := by
  intro i
  have h0 := congrFun h ValueIdx.ix0
  dsimp only [Cert.Pre_finite_inputs.fn, Cert.Pre_finite_inputs.fn_part1] at h0
  have h1 := (IntOp.andi_eq_one.1 h0).2
  haveI : Subsingleton Cert.Pre_finite_inputs.S_.Idx := ⟨fun a b => funext fun d => d.elim0⟩
  have h2 := Host.reduce_andi_all _ _ _ _ _ h1 i
  obtain ⟨h3, h4⟩ := IntOp.andi_eq_one.1 h2
  have h5 : (0#32 : BitVec 32).toInt ≤ (ids i).toInt := IntOp.cmpi_sge.1 h3
  have h6 : (ids i).toInt < (2048#32 : BitVec 32).toInt := IntOp.cmpi_slt.1 h4
  have e0 : (0#32 : BitVec 32).toInt = 0 := by decide
  have e1 : (2048#32 : BitVec 32).toInt = 2048 := by decide
  rw [e0] at h5
  rw [e1] at h6
  exact ⟨h5, h6⟩

end Cert.Attn

end
-- ==== Proof.RefValue.lean ====
/-
  The reference's result, read one operation at a time, is the function `Cert.Attn.attn` of the argument arrays
  whenever every key id names a row.
-/
import proofs.«429981_j48713519071915_4_alg».proof.Proof.RefRead
import proofs.«429981_j48713519071915_4_alg».proof.Proof.Spec
import Idealize.ShloMosaic.Lib.Affine
import Idealize.ShloMosaic.PureOps.Reduce

noncomputable section

namespace Cert.Attn

open Idealize.ShloMosaic Idealize.ShloMosaic.ValueIdx Cert.ReferenceIdeal Cert.ReferenceIdeal.Gen

/-! ## The key id the gather reads -/

/-- A key id that names a row is not negative, so the id wrapped from the end (`id + 2048` where `id < 0`) is the id. -/
theorem wrapped_id (x4 : (⟨S32x2048, .i32⟩ : BufTy).Contents (Elt Ideal)) (h : InRange x4) (i : S32x2048x1.Idx) :
    ReadP.val_main_call0_v4 (F := Ideal) x4 i = x4 (ReadP.idx_main_v3 i) := by
  rw [ReadP.val_main_call0_v4_apply, ReadP.val_main_call0_v1_apply, ReadP.val_main_v3_apply,
    ReadP.val_main_call0_v0_apply, ReadP.val_main_call0_c_apply]
  have hc : IntOp.cmpi .slt (x4 (ReadP.idx_main_v3 i)) 0#32 = 0#1 := eq_zero_of_ne_one fun h1 => by
    have h2 := IntOp.cmpi_slt.1 h1
    have h0 := (h (ReadP.idx_main_v3 i)).1
    have e0 : (0#32 : BitVec 32).toInt = 0 := by decide
    omega
  rw [hc, select_zero]

/-- The two range tests on the wrapped id (`0 ≤ id` and `id ≤ 2047`) both hold at every position. -/
theorem inside_bit (x4 : (⟨S32x2048, .i32⟩ : BufTy).Contents (Elt Ideal)) (h : InRange x4) (i : S32x2048x1.Idx) :
    ReadP.val_main_call0_v10 (F := Ideal) x4 i = 1#1 := by
  rw [ReadP.val_main_call0_v10_apply, ReadP.val_main_call0_v6_apply, ReadP.val_main_call0_v9_apply, wrapped_id x4 h,
    ReadP.val_main_call0_v5_apply, ReadP.val_main_call0_c_2_apply, ReadP.val_main_call0_v8_apply,
    ReadP.val_main_call0_v7_apply, ReadP.val_main_call0_c_1_apply]
  have e0 : (0#32 : BitVec 32).toInt = 0 := by decide
  have e1 : (2047#32 : BitVec 32).toInt = 2047 := by decide
  have hr := h (ReadP.idx_main_v3 i)
  exact IntOp.andi_eq_one.2 ⟨IntOp.cmpi_sge.2 (by omega), IntOp.cmpi_sle.2 (by omega)⟩

/-- A fold by `and` from `1` over bits that are all `1` is `1`. -/
theorem foldl_andi_ones {ι : Type} (f : ι → BitVec 1) (hf : ∀ n, f n = 1#1) :
    ∀ l : List ι, l.foldl (fun r n => IntOp.andi r (f n)) 1#1 = 1#1
  | [] => rfl
  | a :: l => by
    have e : IntOp.andi 1#1 (f a) = 1#1 := by rw [hf a]; decide
    rw [List.foldl_cons, e]; exact foldl_andi_ones f hf l

/-- The range tests and-ed along the unit last axis: `1` at every batch and row. -/
theorem inside_all (x4 : (⟨S32x2048, .i32⟩ : BufTy).Contents (Elt Ideal)) (h : InRange x4) (j : S32x2048.Idx) :
    ReadP.val_main_call0_v11 (F := Ideal) x4 j = 1#1 := by
  unfold ReadP.val_main_call0_v11
  rw [Host.reduce_eq_foldl]
  exact foldl_andi_ones _ (inside_bit x4 h) _

/-! ## The batched gather read at an index -/

/-- The gather's dimension numbers: batch axis 0 of the operand paired with axis 0 of the start indices, a start index
    for the collapsed row axis 1, a full slice of the feature axis 2. -/
abbrev G : GatherDims S32x2048x64 S32x2048x1 S32x2048x64 := gather_S32x2048x64_S32x2048x1_S32x2048x64_2_1_0_0_1_2_1164

/-- THE GATHER READ AT `(b, n, d)`: the operand at batch `b`, at the row the start index `idx[b, n, 0]` names (read
    signed and clamped into the rows), at feature `d`. -/
theorem gather_apply {α : Type} (x : S32x2048x64.Idx → α) (idx : IVec S32x2048x1 32) (b : Fin 32) (n : Fin 2048) (d : Fin 64) :
    Host.gather G x idx (ix3 b n d) = x (ix3 b (keyRow (idx (ix3 b n (0 : Fin 1)))) d) := by
  unfold Host.gather
  congr 1
  funext a
  refine Fin.ext ?_
  match a with
  | ⟨0, _⟩ =>
    show G.start (ix3 b n d) idx 0 + G.batchCoord (ix3 b n d) 0 + G.offCoord (ix3 b n d) 0 = b.val
    have hb : (0 : Fin S32x2048x64.rank) ∈ G.operandBatchingDims := by decide
    have hk : (0 : Fin S32x2048x64.rank) ∉ G.sKept := by rw [GatherDims.mem_sKept]; decide
    rw [G.start_batching _ idx 0 hb, G.offCoord_eq_zero _ 0 hk, Nat.zero_add, Nat.add_zero]
    unfold GatherDims.batchCoord
    rw [dif_pos hb]
    rfl
  | ⟨1, _⟩ =>
    show G.start (ix3 b n d) idx 1 + G.batchCoord (ix3 b n d) 1 + G.offCoord (ix3 b n d) 1 = min (idx (ix3 b n (0 : Fin 1))).toInt.toNat 2047
    have hb : (1 : Fin S32x2048x64.rank) ∉ G.operandBatchingDims := by decide
    have hk : (1 : Fin S32x2048x64.rank) ∉ G.sKept := by rw [GatherDims.mem_sKept]; decide
    have hm : (1 : Fin S32x2048x64.rank) ∈ G.startIndexMap := by decide
    rw [G.batchCoord_eq_zero _ 1 hb, G.offCoord_eq_zero _ 1 hk, Nat.add_zero]
    unfold GatherDims.start
    rw [dif_pos hm]
    have hsi : G.siIdx (ix3 b n d) ⟨List.idxOf (1 : Fin S32x2048x64.rank) G.startIndexMap, List.idxOf_lt_length_iff.2 hm⟩
        = ix3 b n (0 : Fin 1) := by
      funext c; refine Fin.ext ?_
      match c with
      | ⟨0, _⟩ => rfl
      | ⟨1, _⟩ => rfl
      | ⟨2, _⟩ => rfl
    rw [hsi]
    rfl
  | ⟨2, _⟩ =>
    show G.start (ix3 b n d) idx 2 + G.batchCoord (ix3 b n d) 2 + G.offCoord (ix3 b n d) 2 = d.val
    have hb : (2 : Fin S32x2048x64.rank) ∉ G.operandBatchingDims := by decide
    have hm : (2 : Fin S32x2048x64.rank) ∉ G.startIndexMap := by decide
    have hk : (2 : Fin S32x2048x64.rank) ∈ G.sKept := by rw [GatherDims.mem_sKept]; decide
    rw [G.batchCoord_eq_zero _ 2 hb, Nat.add_zero]
    unfold GatherDims.start GatherDims.offCoord
    rw [dif_neg hm, dif_pos hk, Nat.zero_add]
    rfl

/-! ## The stages read at an index -/

/-- The query projection's entry, as the first `dot_general` reads it. -/
theorem dot0_apply (x0 : (⟨S32x2048x2048, .f32⟩ : BufTy).Contents (Elt Ideal)) (w : (⟨S64x2048, .f32⟩ : BufTy).Contents (Elt Ideal))
    (b : Fin 32) (n : Fin 2048) (e : Fin 64) : ReadP.val_main_v0 (F := Ideal) x0 w (ix3 b n e) = proj x0 w b n e := by
  rw [ReadP.val_main_v0_apply]
  unfold proj
  refine Finset.sum_congr rfl fun f _ => ?_
  have el : ReadP.lidx_main_v0 (ix3 b n e) f = ix3 b n f := by
    funext a; match a with | ⟨0, _⟩ => rfl | ⟨1, _⟩ => rfl | ⟨2, _⟩ => rfl
  have er : ReadP.ridx_main_v0 (ix3 b n e) f = ix2 e f := by
    funext a; match a with | ⟨0, _⟩ => rfl | ⟨1, _⟩ => rfl
  rw [el, er]

/-- The key projection's entry, as the second `dot_general` reads it. -/
theorem dot1_apply (x0 : (⟨S32x2048x2048, .f32⟩ : BufTy).Contents (Elt Ideal)) (w : (⟨S64x2048, .f32⟩ : BufTy).Contents (Elt Ideal))
    (b : Fin 32) (n : Fin 2048) (e : Fin 64) : ReadP.val_main_v1 (F := Ideal) x0 w (ix3 b n e) = proj x0 w b n e := by
  rw [ReadP.val_main_v1_apply]
  unfold proj
  refine Finset.sum_congr rfl fun f _ => ?_
  have el : ReadP.lidx_main_v1 (ix3 b n e) f = ix3 b n f := by
    funext a; match a with | ⟨0, _⟩ => rfl | ⟨1, _⟩ => rfl | ⟨2, _⟩ => rfl
  have er : ReadP.ridx_main_v1 (ix3 b n e) f = ix2 e f := by
    funext a; match a with | ⟨0, _⟩ => rfl | ⟨1, _⟩ => rfl
  rw [el, er]

/-- The value projection's entry, as the third `dot_general` reads it. -/
theorem dot2_apply (x0 : (⟨S32x2048x2048, .f32⟩ : BufTy).Contents (Elt Ideal)) (w : (⟨S64x2048, .f32⟩ : BufTy).Contents (Elt Ideal))
    (b : Fin 32) (n : Fin 2048) (e : Fin 64) : ReadP.val_main_v2 (F := Ideal) x0 w (ix3 b n e) = proj x0 w b n e := by
  rw [ReadP.val_main_v2_apply]
  unfold proj
  refine Finset.sum_congr rfl fun f _ => ?_
  have el : ReadP.lidx_main_v2 (ix3 b n e) f = ix3 b n f := by
    funext a; match a with | ⟨0, _⟩ => rfl | ⟨1, _⟩ => rfl | ⟨2, _⟩ => rfl
  have er : ReadP.ridx_main_v2 (ix3 b n e) f = ix2 e f := by
    funext a; match a with | ⟨0, _⟩ => rfl | ⟨1, _⟩ => rfl
  rw [el, er]

/-- The gathered key entry: the key projection at the row the key id of `(b, n)` names. The range test passes, so the
    select keeps the gathered entry and never the fill value. -/
theorem picked_apply (x0 : (⟨S32x2048x2048, .f32⟩ : BufTy).Contents (Elt Ideal)) (x2 : (⟨S64x2048, .f32⟩ : BufTy).Contents (Elt Ideal))
    (x4 : (⟨S32x2048, .i32⟩ : BufTy).Contents (Elt Ideal)) (h : InRange x4) (b : Fin 32) (n : Fin 2048) (e : Fin 64) :
    ReadP.val_main_v4 (F := Ideal) x0 x2 x4 (ix3 b n e) = proj x0 x2 b (keyRow (x4 (ix2 b n))) e := by
  rw [ReadP.val_main_v4_apply, ReadP.val_main_call0_v13_apply, inside_all x4 h, select_one]
  unfold ReadP.val_main_call0_v12
  rw [gather_apply, dot1_apply, wrapped_id x4 h]
  have ei : ReadP.idx_main_v3 (ix3 b n (0 : Fin 1)) = ix2 b n := by
    funext a; match a with | ⟨0, _⟩ => rfl | ⟨1, _⟩ => rfl
  rw [ei]

/-- The score of `(b, n)`: the query row against the picked key row, over eight. -/
theorem score_apply (x0 : (⟨S32x2048x2048, .f32⟩ : BufTy).Contents (Elt Ideal)) (x1 x2 : (⟨S64x2048, .f32⟩ : BufTy).Contents (Elt Ideal))
    (x4 : (⟨S32x2048, .i32⟩ : BufTy).Contents (Elt Ideal)) (h : InRange x4) (b : Fin 32) (n : Fin 2048) :
    ReadP.val_main_v8 (F := Ideal) x0 x1 x2 x4 (ix2 b n)
      = Ideal.div (∑ e : Fin 64, proj x0 x1 b n e * proj x0 x2 b (keyRow (x4 (ix2 b n))) e) eight := by
  rw [ReadP.val_main_v8_apply, ReadP.val_main_v6_apply, ReadP.val_main_v7_apply, ReadP.val_main_cst_0_apply,
    ReadP.val_main_cst_apply, Ideal.hostDivf_def, Ideal.ofBits_def, Ideal.ofBits_def, Ideal.ofBits_zero_f32, zero_add]
  unfold eight
  refine congrArg (fun s => Ideal.div s _) (Finset.sum_congr rfl fun e _ => ?_)
  have ei : ReadP.idx_main_v6 (ix2 b n) e = ix3 b n e := by
    funext a; match a with | ⟨0, _⟩ => rfl | ⟨1, _⟩ => rfl | ⟨2, _⟩ => rfl
  rw [ei, ReadP.val_main_v5_apply, Ideal.mulf_def, dot0_apply, picked_apply x0 x2 x4 h]

/-- The last stage at `(b, n, d)`: the score of `(b, n)` times the value projection's entry. -/
theorem ref_at (x0 : (⟨S32x2048x2048, .f32⟩ : BufTy).Contents (Elt Ideal)) (x1 x2 x3 : (⟨S64x2048, .f32⟩ : BufTy).Contents (Elt Ideal))
    (x4 : (⟨S32x2048, .i32⟩ : BufTy).Contents (Elt Ideal)) (h : InRange x4) (b : Fin 32) (n : Fin 2048) (d : Fin 64) :
    ReadP.val_main_v11 (F := Ideal) x0 x1 x2 x3 x4 (ix3 b n d) = attnAt x0 x1 x2 x3 x4 b n d := by
  rw [ReadP.val_main_v11_apply, ReadP.val_main_v10_apply, ReadP.val_main_v9_apply, Ideal.mulf_def, dot2_apply]
  have ei : ReadP.idx_main_v9 (ReadP.idx_main_v10 (ix3 b n d)) = ix2 b n := by
    funext a; match a with | ⟨0, _⟩ => rfl | ⟨1, _⟩ => rfl
  rw [ei, score_apply x0 x1 x2 x4 h]
  rfl

/-- With every key id inside the rows, the reference's last stage is `attn` of the arguments. -/
theorem ref_eq (x0 : (⟨S32x2048x2048, .f32⟩ : BufTy).Contents (Elt Ideal)) (x1 x2 x3 : (⟨S64x2048, .f32⟩ : BufTy).Contents (Elt Ideal))
    (x4 : (⟨S32x2048, .i32⟩ : BufTy).Contents (Elt Ideal)) (h : InRange x4) :
    Cert.ReferenceIdeal.ReadP.val_main_v11 (F := Ideal) x0 x1 x2 x3 x4 = attn x0 x1 x2 x3 x4 := by
  funext i
  obtain ⟨b, n, d, rfl⟩ : ∃ (b : Fin 32) (n : Fin 2048) (d : Fin 64), i = ix3 b n d := ⟨i 0, i 1, i 2, eq_ix3 i⟩
  exact ref_at x0 x1 x2 x3 x4 h b n d

end Cert.Attn

end
-- ==== Proof.KernelPieces.lean ====
/-
  The kernel's body at one grid point, read as values.

  The body computes the three projections of the staged batch once (`projK`: a product of the batch with a transposed
  weight matrix into a zero accumulator, which at an entry is the sum `Cert.Attn.projT`), and then, for each of the
  sixteen chunks of 128 rows, builds the indicator matrix of the chunk's key ids against the row numbers (`onehot`),
  multiplies it into the key projection (`gathered`: at an entry the indicator sum `Cert.Attn.lookup`), sums the
  products with the chunk's rows of the query projection over the 64 features, divides by 8, and scales the chunk's rows
  of the value projection (`chunk`). `chunk_block` says that the chunk at row offset `o` is the rows `o … o + 127` of
  `Cert.Attn.block`, the one function of the staged arrays that the whole output block is.
-/
import proofs.«429981_j48713519071915_4_alg».proof.Proof.Gen.KernelIdeal.Skeleton
import proofs.«429981_j48713519071915_4_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Pieces

open Cert.KernelIdeal Cert.KernelIdeal.Gen Idealize.ShloMosaic Idealize.ShloMosaic.ValueIdx Cert.Attn

/-! ## The two products' operand indices -/

/-- The dimension numbers of the three projections: [2048, 2048] × [2048, 64]. -/
abbrev DB : DotDims S2048x2048 S2048x64 S2048x64 := dot_S2048x2048_S2048x64_S2048x64_1_0_0_1_n_n
/-- The dimension numbers of the indicator product: [128, 2048] × [2048, 64]. -/
abbrev DS : DotDims S128x2048 S2048x64 S128x64 := dot_S128x2048_S2048x64_S128x64_1_0_0_1_n_n

theorem lhsB_0 (i : S2048x64.Idx) (q : dot_S2048x2048_S2048x64_S2048x64_1_0_0_1_n_n.contr.Idx) :
    (dot_S2048x2048_S2048x64_S2048x64_1_0_0_1_n_n.lhsIdx i q 0).val = (i 0).val := by
  unfold DotDims.lhsIdx
  rw [dif_neg (show ¬(0 : Fin S2048x2048.rank) ∈ dot_S2048x2048_S2048x64_S2048x64_1_0_0_1_n_n.lhsBatch by decide), dif_pos (show (0 : Fin S2048x2048.rank) ∈ dot_S2048x2048_S2048x64_S2048x64_1_0_0_1_n_n.lhsNonContracting by decide)]
  rfl
theorem lhsB_1 (i : S2048x64.Idx) (q : dot_S2048x2048_S2048x64_S2048x64_1_0_0_1_n_n.contr.Idx) :
    (dot_S2048x2048_S2048x64_S2048x64_1_0_0_1_n_n.lhsIdx i q 1).val = (q ⟨0, by decide⟩).val :=
  dot_S2048x2048_S2048x64_S2048x64_1_0_0_1_n_n.lhsIdx_val_of_single rfl i q
theorem rhsB_0 (i : S2048x64.Idx) (q : dot_S2048x2048_S2048x64_S2048x64_1_0_0_1_n_n.contr.Idx) :
    (dot_S2048x2048_S2048x64_S2048x64_1_0_0_1_n_n.rhsIdx i q 0).val = (q ⟨0, by decide⟩).val :=
  dot_S2048x2048_S2048x64_S2048x64_1_0_0_1_n_n.rhsIdx_val_of_single rfl i q
theorem rhsB_1 (i : S2048x64.Idx) (q : dot_S2048x2048_S2048x64_S2048x64_1_0_0_1_n_n.contr.Idx) :
    (dot_S2048x2048_S2048x64_S2048x64_1_0_0_1_n_n.rhsIdx i q 1).val = (i 1).val := by
  unfold DotDims.rhsIdx
  rw [dif_neg (show ¬(1 : Fin S2048x64.rank) ∈ dot_S2048x2048_S2048x64_S2048x64_1_0_0_1_n_n.rhsBatch by decide), dif_pos (show (1 : Fin S2048x64.rank) ∈ dot_S2048x2048_S2048x64_S2048x64_1_0_0_1_n_n.rhsNonContracting by decide)]
  rfl

theorem lhsS_0 (i : S128x64.Idx) (q : dot_S128x2048_S2048x64_S128x64_1_0_0_1_n_n.contr.Idx) :
    (dot_S128x2048_S2048x64_S128x64_1_0_0_1_n_n.lhsIdx i q 0).val = (i 0).val := by
  unfold DotDims.lhsIdx
  rw [dif_neg (show ¬(0 : Fin S128x2048.rank) ∈ dot_S128x2048_S2048x64_S128x64_1_0_0_1_n_n.lhsBatch by decide), dif_pos (show (0 : Fin S128x2048.rank) ∈ dot_S128x2048_S2048x64_S128x64_1_0_0_1_n_n.lhsNonContracting by decide)]
  rfl
theorem lhsS_1 (i : S128x64.Idx) (q : dot_S128x2048_S2048x64_S128x64_1_0_0_1_n_n.contr.Idx) :
    (dot_S128x2048_S2048x64_S128x64_1_0_0_1_n_n.lhsIdx i q 1).val = (q ⟨0, by decide⟩).val :=
  dot_S128x2048_S2048x64_S128x64_1_0_0_1_n_n.lhsIdx_val_of_single rfl i q
theorem rhsS_0 (i : S128x64.Idx) (q : dot_S128x2048_S2048x64_S128x64_1_0_0_1_n_n.contr.Idx) :
    (dot_S128x2048_S2048x64_S128x64_1_0_0_1_n_n.rhsIdx i q 0).val = (q ⟨0, by decide⟩).val :=
  dot_S128x2048_S2048x64_S128x64_1_0_0_1_n_n.rhsIdx_val_of_single rfl i q
theorem rhsS_1 (i : S128x64.Idx) (q : dot_S128x2048_S2048x64_S128x64_1_0_0_1_n_n.contr.Idx) :
    (dot_S128x2048_S2048x64_S128x64_1_0_0_1_n_n.rhsIdx i q 1).val = (i 1).val := by
  unfold DotDims.rhsIdx
  rw [dif_neg (show ¬(1 : Fin S2048x64.rank) ∈ dot_S128x2048_S2048x64_S128x64_1_0_0_1_n_n.rhsBatch by decide), dif_pos (show (1 : Fin S2048x64.rank) ∈ dot_S128x2048_S2048x64_S128x64_1_0_0_1_n_n.rhsNonContracting by decide)]
  rfl

/-! ## A projection of the staged batch -/

/-- The batch `x[b]` (staged as [1, 2048, 2048]) times a transposed weight matrix, into a zero accumulator. -/
def projK (x0 : Vec Ideal S1x2048x2048 .f32) (w : Vec Ideal S2048x64 .f32) : FVec Ideal S2048x64 .f32 :=
  matmul dot_S2048x2048_S2048x64_S2048x64_1_0_0_1_n_n (some .fp32) (shapeCast S2048x2048 x0 shapeCasts_S1x2048x2048_S2048x2048 : FVec Ideal S2048x2048 .f32)
    (shapeCast S2048x64 w shapeCasts_S2048x64_S2048x64 : FVec Ideal S2048x64 .f32) (constant S2048x64 .f32 0x00000000#32)

/-- Its entry (n, e) is the sum over the features of `x[b][n, f] · wᵀ[f, e]`. -/
theorem projK_apply (x0 : Vec Ideal S1x2048x2048 .f32) (w : Vec Ideal S2048x64 .f32) (n : Fin 2048) (e : Fin 64) :
    projK x0 w (ix2 n e) = projT x0 w n e := by
  unfold projK projT
  simp only [matmul]
  rw [Ideal.matmul_constant_zero_apply, ← Equiv.sum_comp (contrEquiv1 dot_S2048x2048_S2048x64_S2048x64_1_0_0_1_n_n 2048 rfl rfl).symm]
  refine Finset.sum_congr rfl fun k _ => ?_
  have hk := contrEquiv1_symm_val dot_S2048x2048_S2048x64_S2048x64_1_0_0_1_n_n 2048 rfl rfl k
  have el : dot_S2048x2048_S2048x64_S2048x64_1_0_0_1_n_n.lhsIdx (ix2 n e) ((contrEquiv1 dot_S2048x2048_S2048x64_S2048x64_1_0_0_1_n_n 2048 rfl rfl).symm k) = ix2 n k := funext fun a => Fin.ext (by
    match a with
    | ⟨0, _⟩ => exact lhsB_0 _ _
    | ⟨1, _⟩ => exact (lhsB_1 _ _).trans hk)
  have er : dot_S2048x2048_S2048x64_S2048x64_1_0_0_1_n_n.rhsIdx (ix2 n e) ((contrEquiv1 dot_S2048x2048_S2048x64_S2048x64_1_0_0_1_n_n 2048 rfl rfl).symm k) = ix2 k e := funext fun a => Fin.ext (by
    match a with
    | ⟨0, _⟩ => exact (rhsB_0 _ _).trans hk
    | ⟨1, _⟩ => exact rhsB_1 _ _)
  rw [el, er, shapeCast_self, shapeCast_1ab_ab_apply]

/-! ## A chunk's indicator matrix and the rows it picks -/

/-- A vector cast to a column reads, at (r, 0), the vector at r. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column broadcast along its rows reads, at (r, j), the column at (r, 0). -/
theorem broadcastTo_a1_ab_apply {α : Type} {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) :=
  broadcastTo_apply v h _ _ fun ax => by
    match ax with
    | ⟨0, _⟩ =>
      show i.val = if a = 1 then 0 else i.val
      by_cases h1 : a = 1
      · rw [if_pos h1]; have := i.isLt; omega
      · rw [if_neg h1]
    | ⟨1, _⟩ =>
      show 0 = if (1 : ℕ) = 1 then 0 else j.val
      rw [if_pos rfl]

/-- The indicator matrix of a chunk's 128 key ids against the 2048 row numbers: `1.0` where the id is the row number. -/
def onehot (idv : Vec Ideal S1x128 .i32) : FVec Ideal S128x2048 .f32 :=
  sitofp .f32 (extui 32 (cmpi .eq (broadcastTo S128x2048 (shapeCast S128x1 (shapeCast S128 idv shapeCasts_S1x128_S128) shapeCasts_S128_S128x1) broadcasts_S128x1_S128x2048)
    (iota .tc S128x2048 32 [1] iota_S128x2048_d1_w32)) natLt_1_32)

theorem onehot_apply (idv : Vec Ideal S1x128 .i32) (r : Fin 128) (j : Fin 2048) :
    onehot idv (ix2 r j) = bitVal (IntOp.cmpi .eq (idv (ix2 (0 : Fin 1) r)) (BitVec.ofNat 32 j.val)) := by
  unfold onehot
  show bitVal (IntOp.cmpi .eq (broadcastTo S128x2048 (shapeCast S128x1 (shapeCast S128 idv shapeCasts_S1x128_S128) shapeCasts_S128_S128x1) broadcasts_S128x1_S128x2048 (ix2 r j))
    (iota .tc S128x2048 32 [1] iota_S128x2048_d1_w32 (ix2 r j))) = _
  rw [iota_single_apply, broadcastTo_a1_ab_apply, shapeCast_a_a1_apply, shapeCast_1a_a_apply]

/-- The indicator matrix times the key projection, into a zero accumulator. -/
def gathered (idv : Vec Ideal S1x128 .i32) (K : FVec Ideal S2048x64 .f32) : FVec Ideal S128x64 .f32 :=
  matmul dot_S128x2048_S2048x64_S128x64_1_0_0_1_n_n (some .fp32) (onehot idv) K (constant S128x64 .f32 0x00000000#32)

/-- Its entry (r, e) is the indicator sum that picks, for the chunk's r-th key id, an entry of column `e` of `K`. -/
theorem gathered_apply (idv : Vec Ideal S1x128 .i32) (K : FVec Ideal S2048x64 .f32) (r : Fin 128) (e : Fin 64) :
    gathered idv K (ix2 r e) = lookup (idv (ix2 (0 : Fin 1) r)) (fun j => K (ix2 j e)) := by
  unfold gathered lookup
  simp only [matmul]
  rw [Ideal.matmul_constant_zero_apply, ← Equiv.sum_comp (contrEquiv1 dot_S128x2048_S2048x64_S128x64_1_0_0_1_n_n 2048 rfl rfl).symm]
  refine Finset.sum_congr rfl fun k _ => ?_
  have hk := contrEquiv1_symm_val dot_S128x2048_S2048x64_S128x64_1_0_0_1_n_n 2048 rfl rfl k
  have el : dot_S128x2048_S2048x64_S128x64_1_0_0_1_n_n.lhsIdx (ix2 r e) ((contrEquiv1 dot_S128x2048_S2048x64_S128x64_1_0_0_1_n_n 2048 rfl rfl).symm k) = ix2 r k := funext fun a => Fin.ext (by
    match a with
    | ⟨0, _⟩ => exact lhsS_0 _ _
    | ⟨1, _⟩ => exact (lhsS_1 _ _).trans hk)
  have er : dot_S128x2048_S2048x64_S128x64_1_0_0_1_n_n.rhsIdx (ix2 r e) ((contrEquiv1 dot_S128x2048_S2048x64_S128x64_1_0_0_1_n_n 2048 rfl rfl).symm k) = ix2 k e := funext fun a => Fin.ext (by
    match a with
    | ⟨0, _⟩ => exact (rhsS_0 _ _).trans hk
    | ⟨1, _⟩ => exact rhsS_1 _ _)
  rw [el, er, onehot_apply]

/-! ## One chunk of the output block -/

/-- The sums over the 64 features of the products of two [128, 64] blocks, row by row. -/
def rowsum (A B : FVec Ideal S128x64 .f32) : FVec Ideal S128 .f32 :=
  multiReduction .add [1] S128 (mulf A B) 0x00000000#32 reduces_S128x64_S128 (.inl rfl) rfl

theorem rowsum_apply (A B : FVec Ideal S128x64 .f32) (r : Fin 128) :
    rowsum A B (ix1 r) = ∑ e : Fin 64, A (ix2 r e) * B (ix2 r e) := by
  unfold rowsum
  refine (Ideal.multiReduction_add_single (mulf A B) 0x00000000#32 reduces_S128x64_S128 (.inl rfl) rfl (ix1 r)).trans ?_
  refine Finset.sum_congr rfl fun e _ => ?_
  have hl : reduces_S128x64_S128.lift (ix1 r) e = ix2 r e := funext fun a => Fin.ext (by
    match a with
    | ⟨0, _⟩ => rfl
    | ⟨1, _⟩ => rfl)
  rw [hl]
  rfl

/-- What the body stores for the chunk of rows from `o`: the chunk's rows of the query projection times the picked key rows,
    summed over the features, divided by 8, times the chunk's rows of the value projection. -/
def chunk (Q K V : FVec Ideal S2048x64 .f32) (idv : Vec Ideal S1x128 .i32) (o : ℕ) (hs : S2048x64.Slices ![o, 0] S128x64) : FVec Ideal S1x128x64 .f32 :=
  shapeCast S1x128x64
    (mulf
      (broadcastTo S128x64
        (divf
          (shapeCast S128x1
            (rowsum (extractStridedSlice S128x64 ![o, 0] Q hs) (gathered idv K))
            shapeCasts_S128_S128x1)
          (broadcast S128x1 (Scalar.ofBits .f32 0x41000000#32)))
        broadcasts_S128x1_S128x64)
      (extractStridedSlice S128x64 ![o, 0] V hs))
    shapeCasts_S128x64_S1x128x64

/-- The chunk at (0, r, d), with `n = o + r` the row of the batch. -/
theorem chunk_apply (Q K V : FVec Ideal S2048x64 .f32) (idv : Vec Ideal S1x128 .i32) (o : ℕ) (hs : S2048x64.Slices ![o, 0] S128x64)
    (u : Fin 1) (r : Fin 128) (d : Fin 64) (n : Fin 2048) (hn : n.val = o + r.val) :
    chunk Q K V idv o hs (ix3 u r d)
      = Ideal.div (∑ e : Fin 64, Q (ix2 n e) * lookup (idv (ix2 (0 : Fin 1) r)) (fun j => K (ix2 j e))) eight * V (ix2 n d) := by
  unfold chunk
  rw [shapeCast_ab_1ab_apply, mulf_apply, broadcastTo_a1_ab_apply, divf_apply, shapeCast_a_a1_apply,
    rowsum_apply, slice2_axis0_apply o V hs r d n hn]
  refine congrArg₂ (· * ·) (congrArg₂ Ideal.div (Finset.sum_congr rfl fun e _ => ?_) rfl) rfl
  rw [slice2_axis0_apply o Q hs r e n hn, gathered_apply]

/-- The chunk of rows from `o`, computed from the staged arrays of batch `b`, is the rows `o … o + 127` of the batch's block:
    its key ids are the entries `o … o + 127` of row `b` of the id array. -/
theorem chunk_block (x0 : Vec Ideal S1x2048x2048 .f32) (x1 x2 x3 : Vec Ideal S2048x64 .f32) (x4 : Vec Ideal S32x2048 .i32) (b : Fin 32)
    (o : ℕ) (hs : S2048x64.Slices ![o, 0] S128x64) (off : Fin 2 → ℕ) (hoff : off = ![b.val, o])
    (inb5 : ∀ a, off a + S1x128.size a ≤ S32x2048.size a)
    (inb6 : ∀ a, (![0, o, 0] : Fin 3 → ℕ) a + S1x128x64.size a ≤ S1x2048x64.size a) (x : S1x128x64.Idx) :
    chunk (projK x0 x1) (projK x0 x2) (projK x0 x3) (View.ld x4 (Rect.unit (s := S32x2048) off S1x128.size inb5)) o hs x
      = block x0 x1 x2 x3 (fun n => x4 (ix2 b n)) ((Rect.unit (s := S1x2048x64) ![0, o, 0] S1x128x64.size inb6).emb x) := by
  subst hoff
  obtain ⟨u, r, d, rfl⟩ : ∃ (u : Fin 1) (r : Fin 128) (d : Fin 64), x = ix3 u r d := ⟨x 0, x 1, x 2, eq_ix3 x⟩
  have ho : o + 128 ≤ 2048 := inb6 1
  have hn : o + r.val < 2048 := by have := r.isLt; omega
  rw [chunk_apply _ _ _ _ o hs u r d ⟨o + r.val, hn⟩ rfl]
  have he : (Rect.unit (s := S1x2048x64) ![0, o, 0] S1x128x64.size inb6).emb (ix3 u r d) = ix3 (0 : Fin 1) (⟨o + r.val, hn⟩ : Fin 2048) d := funext fun a => Fin.ext (by
    match a with
    | ⟨0, _⟩ => show 0 + 1 * u.val = 0; omega
    | ⟨1, _⟩ => show o + 1 * r.val = o + r.val; omega
    | ⟨2, _⟩ => show 0 + 1 * d.val = d.val; omega)
  rw [he]
  have hid : View.ld x4 (Rect.unit (s := S32x2048) ![b.val, o] S1x128.size inb5) (ix2 (0 : Fin 1) r) = x4 (ix2 b ⟨o + r.val, hn⟩) := by
    show x4 _ = x4 _
    refine congrArg x4 (funext fun a => Fin.ext ?_)
    match a with
    | ⟨0, _⟩ => show b.val + 1 * 0 = b.val; omega
    | ⟨1, _⟩ => show o + 1 * r.val = o + r.val; omega
  rw [hid]
  unfold block blockAt
  simp only [projK_apply]

end Cert.KernelIdeal.Pieces

end
-- ==== Proof.KernelValue.lean ====
/-
  The kernel's result array as one function of the argument arrays.

  At grid point `t` the body leaves in the output's staging buffer the sixteen chunks it stored; each is the
  corresponding rows of `Cert.Attn.block` of the point's staged arrays (`out_eq`), so the buffer holds that block. The
  point's staged arrays are batch `t` of `x`, the three transposed weight matrices (which the host operations before the
  call wrote) and the whole id array; so what point `t` writes back is batch `t` of `attnT` of those arrays (`flushed_eq`).
  The 32 batches tile the result (`final`), and with the transposes read back and every key id inside the rows, the
  result is `Cert.Attn.attn` of the arguments (`attnT_eq`, `run`).
-/
import proofs.«429981_j48713519071915_4_alg».proof.Proof.Gen.KernelIdeal.Value
import proofs.«429981_j48713519071915_4_alg».proof.Proof.KernelPieces
import Idealize.ShloMosaic.Lib.StableHlo.Run
import Idealize.ShloMosaic.Lib.Tactic

set_option maxRecDepth 16384

noncomputable section

open scoped BigOperators

namespace Cert.KernelIdeal.KValue

open Cert.KernelIdeal Cert.KernelIdeal.Gen Cert.KernelIdeal.Value Cert.KernelIdeal.Pieces
open Idealize.ShloMosaic Idealize.ShloMosaic.TcCoe Idealize.ShloMosaic.Tactic Idealize.ShloMosaic.ValueIdx Idealize.SL.Sem Cert.Attn
open Idealize.ShloMosaic.Pipeline (Dat)

theorem hz3 : (![0, 0, 0] : Fin 3 → Nat) = fun _ => 0 := funext fun a => by fin_cases a <;> rfl
theorem hz2 : (![0, 0] : Fin 2 → Nat) = fun _ => 0 := funext fun a => by fin_cases a <;> rfl

/-! ## What the body leaves in the output's staging buffer -/

/-- The sixteen stored chunks are the rows of one function of the staged arrays: the block of the batch the grid
    coordinate names. -/
theorem out_eq (c : Dev nD) (i : grid0.Coords) (arg1 : Memref sig .tc .vmem S1x2048x2048 .f32) (harg1 : arg1.IsWhole) (arg2 : Memref sig .tc .vmem S2048x64 .f32) (harg2 : arg2.IsWhole) (arg3 : Memref sig .tc .vmem S2048x64 .f32) (harg3 : arg3.IsWhole) (arg4 : Memref sig .tc .vmem S2048x64 .f32) (harg4 : arg4.IsWhole) (arg5 : Memref sig .tc .vmem S32x2048 .i32) (harg5 : arg5.IsWhole) (arg6 : Memref sig .tc .vmem S1x2048x64 .f32) (harg6 : arg6.IsWhole)
    (x0 : Vec Ideal S1x2048x2048 .f32) (x1 x2 x3 : Vec Ideal S2048x64 .f32) (x4 : Vec Ideal S32x2048 .i32) :
    out0_A_5 (F := Ideal) c i arg1 harg1 arg2 harg2 arg3 harg3 arg4 harg4 arg5 harg5 arg6 harg6 x0 x1 x2 x3 x4
      = block x0 x1 x2 x3 (fun n => x4 (ix2 (⟨(i 0).val, (i 0).isLt⟩ : Fin 32) n)) := by
  unfold out0_A_5
  rw [View.read_writes_eq_canon _ _ _ (cover0_A_5 c i arg1 harg1 arg2 harg2 arg3 harg3 arg4 harg4 arg5 harg5 arg6 harg6 x0 x1 x2 x3 x4)]
  funext y
  refine View.canon_apply_of_pieces (block x0 x1 x2 x3 (fun n => x4 (ix2 (⟨(i 0).val, (i 0).isLt⟩ : Fin 32) n))) _ ?_ y
    (cover0_A_5 c i arg1 harg1 arg2 harg2 arg3 harg3 arg4 harg4 arg5 harg5 arg6 harg6 x0 x1 x2 x3 x4 y)
  unfold kernelRun0_A
  dsimp only
  sl_unfold_words
  simp only [View.readAt_eq_ld, harg1.read_unread, harg2.read_unread, harg3.read_unread, harg4.read_unread, harg5.read_unread,
    View.ld_unit_zero (S := S1x2048x2048) hz3, View.ld_unit_zero (S := S2048x64) hz2]
  intro p hp x
  simp only [List.mem_cons, List.not_mem_nil, or_false] at hp
  rcases hp with rfl | rfl | rfl | rfl | rfl | rfl | rfl | rfl | rfl | rfl | rfl | rfl | rfl | rfl | rfl | rfl
  · exact chunk_block x0 x1 x2 x3 x4 ⟨(i 0).val, (i 0).isLt⟩ 1920 slices_S2048x64_o1920_0_S128x64 (k0_off16 i) (k0_off16_eq i) (k0_off16_inb i) inb_S1x2048x64_S1x128x64_0_1920_0 x
  · exact chunk_block x0 x1 x2 x3 x4 ⟨(i 0).val, (i 0).isLt⟩ 1792 slices_S2048x64_o1792_0_S128x64 (k0_off15 i) (k0_off15_eq i) (k0_off15_inb i) inb_S1x2048x64_S1x128x64_0_1792_0 x
  · exact chunk_block x0 x1 x2 x3 x4 ⟨(i 0).val, (i 0).isLt⟩ 1664 slices_S2048x64_o1664_0_S128x64 (k0_off14 i) (k0_off14_eq i) (k0_off14_inb i) inb_S1x2048x64_S1x128x64_0_1664_0 x
  · exact chunk_block x0 x1 x2 x3 x4 ⟨(i 0).val, (i 0).isLt⟩ 1536 slices_S2048x64_o1536_0_S128x64 (k0_off13 i) (k0_off13_eq i) (k0_off13_inb i) inb_S1x2048x64_S1x128x64_0_1536_0 x
  · exact chunk_block x0 x1 x2 x3 x4 ⟨(i 0).val, (i 0).isLt⟩ 1408 slices_S2048x64_o1408_0_S128x64 (k0_off12 i) (k0_off12_eq i) (k0_off12_inb i) inb_S1x2048x64_S1x128x64_0_1408_0 x
  · exact chunk_block x0 x1 x2 x3 x4 ⟨(i 0).val, (i 0).isLt⟩ 1280 slices_S2048x64_o1280_0_S128x64 (k0_off11 i) (k0_off11_eq i) (k0_off11_inb i) inb_S1x2048x64_S1x128x64_0_1280_0 x
  · exact chunk_block x0 x1 x2 x3 x4 ⟨(i 0).val, (i 0).isLt⟩ 1152 slices_S2048x64_o1152_0_S128x64 (k0_off10 i) (k0_off10_eq i) (k0_off10_inb i) inb_S1x2048x64_S1x128x64_0_1152_0 x
  · exact chunk_block x0 x1 x2 x3 x4 ⟨(i 0).val, (i 0).isLt⟩ 1024 slices_S2048x64_o1024_0_S128x64 (k0_off9 i) (k0_off9_eq i) (k0_off9_inb i) inb_S1x2048x64_S1x128x64_0_1024_0 x
  · exact chunk_block x0 x1 x2 x3 x4 ⟨(i 0).val, (i 0).isLt⟩ 896 slices_S2048x64_o896_0_S128x64 (k0_off8 i) (k0_off8_eq i) (k0_off8_inb i) inb_S1x2048x64_S1x128x64_0_896_0 x
  · exact chunk_block x0 x1 x2 x3 x4 ⟨(i 0).val, (i 0).isLt⟩ 768 slices_S2048x64_o768_0_S128x64 (k0_off7 i) (k0_off7_eq i) (k0_off7_inb i) inb_S1x2048x64_S1x128x64_0_768_0 x
  · exact chunk_block x0 x1 x2 x3 x4 ⟨(i 0).val, (i 0).isLt⟩ 640 slices_S2048x64_o640_0_S128x64 (k0_off6 i) (k0_off6_eq i) (k0_off6_inb i) inb_S1x2048x64_S1x128x64_0_640_0 x
  · exact chunk_block x0 x1 x2 x3 x4 ⟨(i 0).val, (i 0).isLt⟩ 512 slices_S2048x64_o512_0_S128x64 (k0_off5 i) (k0_off5_eq i) (k0_off5_inb i) inb_S1x2048x64_S1x128x64_0_512_0 x
  · exact chunk_block x0 x1 x2 x3 x4 ⟨(i 0).val, (i 0).isLt⟩ 384 slices_S2048x64_o384_0_S128x64 (k0_off4 i) (k0_off4_eq i) (k0_off4_inb i) inb_S1x2048x64_S1x128x64_0_384_0 x
  · exact chunk_block x0 x1 x2 x3 x4 ⟨(i 0).val, (i 0).isLt⟩ 256 slices_S2048x64_o256_0_S128x64 (k0_off3 i) (k0_off3_eq i) (k0_off3_inb i) inb_S1x2048x64_S1x128x64_0_256_0 x
  · exact chunk_block x0 x1 x2 x3 x4 ⟨(i 0).val, (i 0).isLt⟩ 128 slices_S2048x64_o128_0_S128x64 (k0_off2 i) (k0_off2_eq i) (k0_off2_inb i) inb_S1x2048x64_S1x128x64_0_128_0 x
  · exact chunk_block x0 x1 x2 x3 x4 ⟨(i 0).val, (i 0).isLt⟩ 0 slices_S2048x64_o0_0_S128x64 (k0_off1 i) (k0_off1_eq i) (k0_off1_inb i) inb_S1x2048x64_S1x128x64_0_0_0 x

/-! ## The point's staged arrays, and what the point writes back -/

variable (m : (ℓ : Loc nD τ sig) → Buf (Elt Ideal) ℓ) (ρ : Dev nD → PrngReg)

/-- The printed index maps, decided over the 32 grid points: the batch window and the output window are at block `t`
    along axis 0, every other window at block 0; the grid coordinate is the point's number. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = t.val ∧ win0_5.index t (1 : Fin 3) = 0 ∧ win0_5.index t (2 : Fin 3) = 0
    ∧ (grid0.coords t (0 : Fin 1)).val = t.val :=
  (by decide +kernel : ∀ t : Fin grid0.N, _)

/-- The batch window's block at point `t` is batch `t` of `x`. -/
theorem iblk0_apply (c : Dev nD) (t : Fin cfg0.N) (z : S1x2048x2048.Idx) (k : S32x2048x2048.Idx)
    (hk0 : (k 0).val = t.val) (hk1 : (k 1).val = (z 1).val) (hk2 : (k 2).val = (z 2).val) :
    (iblk m c 0 t : Vec Ideal S1x2048x2048 .f32) z = (V m c main_arg0 : S32x2048x2048.Idx → EReal) k := by
  obtain ⟨e0, e1, e2, -⟩ := idx_facts t
  unfold iblk
  rw [View.read_apply]
  show V m c main_arg0 _ = V m c main_arg0 k
  congr 1
  funext a
  apply Fin.ext
  have hz0 : (z 0).val < 1 := (z 0).isLt
  match a with
  | ⟨0, _⟩ => show win0_0.index t 0 * 1 + 1 * (z 0).val = (k 0).val; rw [e0, hk0]; omega
  | ⟨1, _⟩ => show win0_0.index t 1 * 2048 + 1 * (z 1).val = (k 1).val; rw [e1, hk1]; omega
  | ⟨2, _⟩ => show win0_0.index t 2 * 2048 + 1 * (z 2).val = (k 2).val; rw [e2, hk2]; omega

/-- Window 1 stages its whole array at every point. -/
theorem iblk1_eq (c : Dev nD) (t : Fin cfg0.N) : (iblk m c 1 t : Vec Ideal S2048x64 .f32) = (V m c main_v0 : S2048x64.Idx → EReal) := by
  obtain ⟨-, -, -, e0, e1, -⟩ := idx_facts t
  funext z
  unfold iblk
  rw [View.read_apply]
  show V m c main_v0 _ = V m c main_v0 z
  congr 1
  funext a
  apply Fin.ext
  match a with
  | ⟨0, _⟩ => show win0_1.index t 0 * 2048 + 1 * (z 0).val = (z 0).val; rw [e0]; omega
  | ⟨1, _⟩ => show win0_1.index t 1 * 64 + 1 * (z 1).val = (z 1).val; rw [e1]; omega

/-- Window 2 stages its whole array at every point. -/
theorem iblk2_eq (c : Dev nD) (t : Fin cfg0.N) : (iblk m c 2 t : Vec Ideal S2048x64 .f32) = (V m c main_v1 : S2048x64.Idx → EReal) := by
  obtain ⟨-, -, -, -, -, e0, e1, -⟩ := idx_facts t
  funext z
  unfold iblk
  rw [View.read_apply]
  show V m c main_v1 _ = V m c main_v1 z
  congr 1
  funext a
  apply Fin.ext
  match a with
  | ⟨0, _⟩ => show win0_2.index t 0 * 2048 + 1 * (z 0).val = (z 0).val; rw [e0]; omega
  | ⟨1, _⟩ => show win0_2.index t 1 * 64 + 1 * (z 1).val = (z 1).val; rw [e1]; omega

/-- Window 3 stages its whole array at every point. -/
theorem iblk3_eq (c : Dev nD) (t : Fin cfg0.N) : (iblk m c 3 t : Vec Ideal S2048x64 .f32) = (V m c main_v2 : S2048x64.Idx → EReal) := by
  obtain ⟨-, -, -, -, -, -, -, e0, e1, -⟩ := idx_facts t
  funext z
  unfold iblk
  rw [View.read_apply]
  show V m c main_v2 _ = V m c main_v2 z
  congr 1
  funext a
  apply Fin.ext
  match a with
  | ⟨0, _⟩ => show win0_3.index t 0 * 2048 + 1 * (z 0).val = (z 0).val; rw [e0]; omega
  | ⟨1, _⟩ => show win0_3.index t 1 * 64 + 1 * (z 1).val = (z 1).val; rw [e1]; omega

/-- Window 4 stages its whole array at every point. -/
theorem iblk4_eq (c : Dev nD) (t : Fin cfg0.N) : (iblk m c 4 t : Vec Ideal S32x2048 .i32) = (V m c main_arg4 : S32x2048.Idx → BitVec 32) := by
  obtain ⟨-, -, -, -, -, -, -, -, -, e0, e1, -⟩ := idx_facts t
  funext z
  unfold iblk
  rw [View.read_apply]
  show V m c main_arg4 _ = V m c main_arg4 z
  congr 1
  funext a
  apply Fin.ext
  match a with
  | ⟨0, _⟩ => show win0_4.index t 0 * 32 + 1 * (z 0).val = (z 0).val; rw [e0]; omega
  | ⟨1, _⟩ => show win0_4.index t 1 * 2048 + 1 * (z 1).val = (z 1).val; rw [e1]; omega

/-- Batch `b` of `x`, as a staged block. -/
def batchOf (X : FVec Ideal SX .f32) (b : Fin 32) : FVec Ideal SXb .f32 := fun z => X (ix3 b (z 1) (z 2))

/-- The result at batch `b`, row `n`, feature `d` in the kernel's own terms: the block function of batch `b` of `x`, the
    transposed weights and row `b` of the key ids. -/
def attnTAt (X : FVec Ideal SX .f32) (wqt wkt wvt : FVec Ideal SWt .f32) (ids : IVec SI 32) (b : Fin 32) (n : Fin 2048) (d : Fin 64) : EReal :=
  blockAt (batchOf X b) wqt wkt wvt (fun r => ids (ix2 b r)) n d

/-- The whole result array in those terms. -/
def attnT (X : FVec Ideal SX .f32) (wqt wkt wvt : FVec Ideal SWt .f32) (ids : IVec SI 32) : FVec Ideal SO .f32 :=
  fun y => attnTAt X wqt wkt wvt ids (y 0) (y 1) (y 2)

/-- The block of the arrays staged at point `t` is batch `t` of `attnT` of the arrays as the call finds them. -/
theorem block_point (c : Dev nD) (t : Fin cfg0.N) (b : Fin 32) (hb : b.val = t.val) (u : Fin 1) (r : Fin 2048) (d : Fin 64) :
    block (iblk m c 0 t) (iblk m c 1 t) (iblk m c 2 t) (iblk m c 3 t) (fun n => (iblk m c 4 t : Vec Ideal S32x2048 .i32) (ix2 b n)) (ix3 u r d)
      = attnTAt (V m c main_arg0) (V m c main_v0) (V m c main_v1) (V m c main_v2) (V m c main_arg4) b r d := by
  have h0 : ∀ (n : Fin 2048) (f : Fin 2048), (iblk m c 0 t : Vec Ideal S1x2048x2048 .f32) (ix3 (0 : Fin 1) n f)
      = (V m c main_arg0 : S32x2048x2048.Idx → EReal) (ix3 b n f) :=
    fun n f => iblk0_apply m c t _ _ hb rfl rfl
  show blockAt _ _ _ _ _ r d = blockAt _ _ _ _ _ r d
  unfold blockAt projT batchOf
  simp only [h0, iblk1_eq m c t, iblk2_eq m c t, iblk3_eq m c t, iblk4_eq m c t]
  all_goals rfl

/-- WHAT POINT `t` WRITES BACK is block `t` of `attnT` of the arrays as the call finds them. -/
theorem flushed_eq (c : Dev nD) (t : Fin cfg0.N) :
    (dats m 0 c).flushed 5 t = ((cfg0.win 5).blk t).view.read (Elt Ideal)
      (attnT (V m c main_arg0) (V m c main_v0) (V m c main_v1) (V m c main_v2) (V m c main_arg4)) := by
  obtain ⟨-, -, -, -, -, -, -, -, -, -, -, e0, e1, e2, eg⟩ := idx_facts t
  rw [flushed5_A, out_eq]
  funext j
  obtain ⟨u, r, d, rfl⟩ : ∃ (u : Fin 1) (r : Fin 2048) (d : Fin 64), j = ix3 u r d := ⟨j 0, j 1, j 2, eq_ix3 j⟩
  have ht : t.val < 32 := t.isLt
  rw [View.read_apply]
  refine (block_point m c t ⟨(grid0.coords t 0).val, (grid0.coords t 0).isLt⟩ eg u r d).trans ?_
  have he : ((cfg0.win 5).blk t).view.emb (ix3 u r d) = ix3 (⟨(grid0.coords t 0).val, (grid0.coords t 0).isLt⟩ : Fin 32) r d := by
    funext a
    apply Fin.ext
    have hu : u.val < 1 := u.isLt
    match a with
    | ⟨0, _⟩ => show win0_5.index t 0 * 1 + 1 * u.val = (grid0.coords t 0).val; rw [e0, eg]; omega
    | ⟨1, _⟩ => show win0_5.index t 1 * 2048 + 1 * r.val = r.val; rw [e1]; omega
    | ⟨2, _⟩ => show win0_5.index t 2 * 64 + 1 * d.val = d.val; rw [e2]; omega
  rw [he]
  rfl

/-- Every index of the result is in the block of the point its batch coordinate names. -/
theorem cover (i : S32x2048x64.Idx) : ∃ t : Fin cfg0.N, (cfg0.win 5).flush t = true ∧ i ∈ ((cfg0.win 5).blk t).view.set := by
  have hi : (i 0).val < 32 := (i 0).isLt
  refine ⟨⟨(i 0).val, hi⟩, flush0_5 _, ?_⟩
  obtain ⟨-, -, -, -, -, -, -, -, -, -, -, e0', e1, e2, -⟩ := idx_facts ⟨(i 0).val, hi⟩
  have e0 : win0_5.index ⟨(i 0).val, hi⟩ (0 : Fin 3) = (i 0).val := e0'
  show i ∈ ((View.whole main_v3).slice (win0_5.rect ⟨(i 0).val, hi⟩)).set
  rw [View.set_slice_whole, Rect.mem_set_unit]
  intro a
  have h1 : (i 1).val < 2048 := (i 1).isLt
  have h2 : (i 2).val < 64 := (i 2).isLt
  match a with
  | ⟨0, _⟩ => show win0_5.index ⟨(i 0).val, hi⟩ 0 * 1 ≤ (i 0).val ∧ (i 0).val < win0_5.index ⟨(i 0).val, hi⟩ 0 * 1 + 1; rw [e0]; omega
  | ⟨1, _⟩ => show win0_5.index ⟨(i 0).val, hi⟩ 1 * 2048 ≤ (i 1).val ∧ (i 1).val < win0_5.index ⟨(i 0).val, hi⟩ 1 * 2048 + 2048; rw [e1]; omega
  | ⟨2, _⟩ => show win0_5.index ⟨(i 0).val, hi⟩ 2 * 64 ≤ (i 2).val ∧ (i 2).val < win0_5.index ⟨(i 0).val, hi⟩ 2 * 64 + 64; rw [e2]; omega

/-- THE RESULT ARRAY after the run, in the kernel's own terms. -/
theorem final (c : Dev nD) : (dats m 0 c).arrAt 5 cfg0.N
    = attnT (V m c main_arg0) (V m c main_v0) (V m c main_v1) (V m c main_v2) (V m c main_arg4) :=
  (dats m 0 c).arrAt_eq_of_cover 5 _ (fun t _ => flushed_eq m c t) cover

/-! ## The transposes read back -/

/-- The host operations before the call wrote the three transposed weight matrices. -/
theorem V_main_v0 (c : Dev nD) : (V m c main_v0 : S2048x64.Idx → EReal)
    = transpose S2048x64 [1, 0] (m ((c : Thread nD τ).loc main_arg1)) transposes_S64x2048_S2048x64_1_0 := by
  dsimp only [V, hostOps0]; after_results
theorem V_main_v1 (c : Dev nD) : (V m c main_v1 : S2048x64.Idx → EReal)
    = transpose S2048x64 [1, 0] (m ((c : Thread nD τ).loc main_arg2)) transposes_S64x2048_S2048x64_1_0 := by
  dsimp only [V, hostOps0]; after_results
theorem V_main_v2 (c : Dev nD) : (V m c main_v2 : S2048x64.Idx → EReal)
    = transpose S2048x64 [1, 0] (m ((c : Thread nD τ).loc main_arg3)) transposes_S64x2048_S2048x64_1_0 := by
  dsimp only [V, hostOps0]; after_results

/-- A projection against a transposed weight matrix is the projection against the matrix. -/
theorem projT_transpose (X : FVec Ideal SX .f32) (w : FVec Ideal SW .f32) (h : SW.Transposes [1, 0] SWt) (b : Fin 32) (n : Fin 2048) (d : Fin 64) :
    projT (batchOf X b) (transpose SWt [1, 0] w h) n d = proj X w b n d := by
  unfold projT proj batchOf
  refine Finset.sum_congr rfl fun f _ => ?_
  rw [transpose_ix2_apply]

/-- With the transposes read back, the kernel's terms are the indicator-sum form of the result. -/
theorem attnT_transpose (X : FVec Ideal SX .f32) (wq wk wv : FVec Ideal SW .f32) (h : SW.Transposes [1, 0] SWt) (ids : IVec SI 32)
    (b : Fin 32) (n : Fin 2048) (d : Fin 64) :
    attnTAt X (transpose SWt [1, 0] wq h) (transpose SWt [1, 0] wk h) (transpose SWt [1, 0] wv h) ids b n d = attnSumAt X wq wk wv ids b n d := by
  unfold attnTAt blockAt attnSumAt
  refine congrArg₂ (· * ·) (congrArg₂ Ideal.div (Finset.sum_congr rfl fun e _ => ?_) rfl) (projT_transpose X wv h b n d)
  exact congrArg₂ (· * ·) (projT_transpose X wq h b n e)
    (congrArg (lookup (ids (ix2 b n))) (funext fun r => projT_transpose X wk h b r e))

/-! ## The run, read -/

/-- The frame run re-posted: with every key id inside the rows, the result array ends at `attn` of the arguments, the
    arguments unchanged. -/
theorem run (hids : ∀ c : Dev nD, InRange (m ((c : Thread nD τ).loc main_arg4))) :
    θ_run defs (onTc (τ := τ) (main (F := Ideal))) ⟨m, fun _ => 0, ρ⟩ fun r => ∀ c : Dev nD,
      r.2.mem ((c : Thread nD τ).loc main_v3) = attn (m ((c : Thread nD τ).loc main_arg0)) (m ((c : Thread nD τ).loc main_arg1))
        (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨by
      rw [(h c).1, final m c, V_main_arg0, V_main_v0, V_main_v1, V_main_v2, V_main_arg4]
      funext y
      obtain ⟨b, n, d, rfl⟩ : ∃ (b : Fin 32) (n : Fin 2048) (d : Fin 64), y = ix3 b n d := ⟨y 0, y 1, y 2, eq_ix3 y⟩
      show attnTAt _ _ _ _ _ b n d = attnAt _ _ _ _ _ b n d
      exact (attnT_transpose _ _ _ _ _ _ b n d).trans (attnSumAt_eq _ _ _ _ _ (hids c) b n d), (h c).2⟩)
    (run_blocks m ρ)

end Cert.KernelIdeal.KValue

end
-- ==== Proof.lean ====
/-
  The certificate: a kernel that projects each batch of `x` onto queries, keys and values, picks for every row the key
  row its key id names by a product with the indicator matrix of the ids, and scales the value row by the score
  `(query row · picked key row) / 8`, against the reference that picks the key row by indexing.

  Over the extended reals both compute `Cert.Attn.attn` of the argument arrays (Proof/Spec.lean) whenever every key id
  lies in `[0, 2048)`, which the precondition states: the indicator sum has one term that is not zero there, and outside
  that range the two programs differ (the reference wraps a negative id and fills with its fill value past the end,
  the indicator matrix has an all-zero row). The kernel's side is Proof/KernelPieces.lean and Proof/KernelValue.lean,
  the reference's side Proof/RefValue.lean over its run read one operation at a time, the precondition's key-id
  conjunct Proof/PreRange.lean. The three frames are the programs' runs with the results dropped; nothing was
  rewritten between the kernel and its idealization, so that claim is `True`.
-/
import proofs.«429981_j48713519071915_4_alg».proof.Defs
import proofs.«429981_j48713519071915_4_alg».proof.Proof.Gen.Kernel
import proofs.«429981_j48713519071915_4_alg».proof.Proof.Gen.Kernel.Skeleton
import proofs.«429981_j48713519071915_4_alg».proof.Proof.Gen.Kernel.Launch
import proofs.«429981_j48713519071915_4_alg».proof.Proof.Gen.Kernel.Points
import proofs.«429981_j48713519071915_4_alg».proof.Proof.Gen.Kernel.Frame
import proofs.«429981_j48713519071915_4_alg».proof.Proof.Gen.KernelIdeal
import proofs.«429981_j48713519071915_4_alg».proof.Proof.Gen.KernelIdeal.Skeleton
import proofs.«429981_j48713519071915_4_alg».proof.Proof.Gen.KernelIdeal.Launch
import proofs.«429981_j48713519071915_4_alg».proof.Proof.Gen.KernelIdeal.Points
import proofs.«429981_j48713519071915_4_alg».proof.Proof.Gen.KernelIdeal.Frame
import proofs.«429981_j48713519071915_4_alg».proof.Proof.Gen.ReferenceIdeal
import proofs.«429981_j48713519071915_4_alg».proof.Proof.Gen.Pre_finite_inputs
import proofs.«429981_j48713519071915_4_alg».proof.Proof.Gen.KernelIdeal.Value
import proofs.«429981_j48713519071915_4_alg».proof.Proof.RefRun
import proofs.«429981_j48713519071915_4_alg».proof.Proof.RefRead
import proofs.«429981_j48713519071915_4_alg».proof.Proof.Spec
import proofs.«429981_j48713519071915_4_alg».proof.Proof.PreRange
import proofs.«429981_j48713519071915_4_alg».proof.Proof.RefValue
import proofs.«429981_j48713519071915_4_alg».proof.Proof.KernelPieces
import proofs.«429981_j48713519071915_4_alg».proof.Proof.KernelValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.ValueP.run (F := Ideal) m ρ)

/-- From memories that agree on the arguments and satisfy the precondition, both programs end with the result array at
    `Cert.Attn.attn` of the arguments: the kernel by its sixteen chunks per batch, the reference by its gather. -/
theorem algebraic : Cert.algebraic_KernelIdeal_ReferenceIdeal := by
  intro m ρ m' ρ' hpre hagree
  have hids : ∀ c : Dev Cert.KernelIdeal.nD,
      Cert.Attn.InRange (m ((c.tc : Thread Cert.KernelIdeal.nD Cert.KernelIdeal.τ).loc Cert.KernelIdeal.main_arg4)) :=
    fun c => Cert.Attn.inRange_of_pre _ _ _ _ _ (hpre c)
  refine ⟨_, Cert.KernelIdeal.KValue.run m ρ hids, ?_⟩
  refine (θ_run Cert.ReferenceIdeal.defs _ _).mono (fun _ h c => ⟨(h c).1.trans ?_, (h c).2⟩)
    (Cert.ReferenceIdeal.ValueP.run (F := Ideal) m' ρ')
  rw [(hagree c).1, (hagree c).2.1, (hagree c).2.2.1, (hagree c).2.2.2.1, (hagree c).2.2.2.2]
  exact (Cert.ReferenceIdeal.ReadP.val_main_v11_eq (F := Ideal) _ _ _ _ _).trans (Cert.Attn.ref_eq _ _ _ _ _ (hids c))

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
